-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x2 : Shape := ⟨2, ![8388608, 2]⟩
abbrev S4x2 : Shape := ⟨2, ![4, 2]⟩
abbrev S4 : Shape := ⟨1, ![4]⟩
abbrev S10x4x4 : Shape := ⟨3, ![10, 4, 4]⟩
abbrev S10x4 : Shape := ⟨2, ![10, 4]⟩
abbrev S1x4 : Shape := ⟨2, ![1, 4]⟩
abbrev S1 : Shape := ⟨1, ![1]⟩
abbrev S_ : Shape := ⟨0, ![]⟩

class Facts : Prop where
  bcast_S_S8388608x2 : S_.BroadcastsInDim S8388608x2 (![] : Fin 0 → Fin S8388608x2.rank)
  reducesTo_S8388608x2_S_d0_1 : S8388608x2.ReducesTo [0, 1] S_
  h_S_ : 0 < S_.numel
  bcast_S_S4x2 : S_.BroadcastsInDim S4x2 (![] : Fin 0 → Fin S4x2.rank)
  reducesTo_S4x2_S_d0_1 : S4x2.ReducesTo [0, 1] S_
  bcast_S_S4 : S_.BroadcastsInDim S4 (![] : Fin 0 → Fin S4.rank)
  reducesTo_S4_S_d0 : S4.ReducesTo [0] S_
  bcast_S_S10x4x4 : S_.BroadcastsInDim S10x4x4 (![] : Fin 0 → Fin S10x4x4.rank)
  reducesTo_S10x4x4_S_d0_1_2 : S10x4x4.ReducesTo [0, 1, 2] S_
  bcast_S_S10x4 : S_.BroadcastsInDim S10x4 (![] : Fin 0 → Fin S10x4.rank)
  reducesTo_S10x4_S_d0_1 : S10x4.ReducesTo [0, 1] S_
  bcast_S_S1x4 : S_.BroadcastsInDim S1x4 (![] : Fin 0 → Fin S1x4.rank)
  reducesTo_S1x4_S_d0_1 : S1x4.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S10x4 .f32) (main_arg5 : FVec F S1x4 .f32) (main_arg6 : FVec F S1 .f32) (main_v13 : IVec S_ 1) (main_v16 : IVec S10x4x4 1) : IVec S_ 1 :=
  let main_c_5 : IVec S_ 1 := constantI S_ 1 1#1
  let main_v17 : IVec S_ 1 := (fun x v => Host.reduce IntOp.andi x v reducesTo_S10x4x4_S_d0_1_2 h_S_) main_v16 main_c_5
  let main_v18 : IVec S_ 1 := andi main_v13 main_v17
  let main_v19 : FVec F S10x4 .f32 := Host.absf main_arg4
  let main_cst_6 : FVec F S_ .f32 := constant S_ .f32 0x7F800000#32
  let main_v20 : FVec F S10x4 .f32 := broadcastInDim S10x4 ![] bcast_S_S10x4 main_cst_6
  let main_v21 : IVec S10x4 1 := cmpf .olt main_v19 main_v20
  let main_c_7 : IVec S_ 1 := constantI S_ 1 1#1
  let main_v22 : IVec S_ 1 := (fun x v => Host.reduce IntOp.andi x v reducesTo_S10x4_S_d0_1 h_S_) main_v21 main_c_7
  let main_v23 : IVec S_ 1 := andi main_v18 main_v22
  let main_v24 : FVec F S1x4 .f32 := Host.absf main_arg5
  let main_cst_8 : FVec F S_ .f32 := constant S_ .f32 0x7F800000#32
  let main_v25 : FVec F S1x4 .f32 := broadcastInDim S1x4 ![] bcast_S_S1x4 main_cst_8
  let main_v26 : IVec S1x4 1 := cmpf .olt main_v24 main_v25
  let main_c_9 : IVec S_ 1 := constantI S_ 1 1#1
  let main_v27 : IVec S_ 1 := (fun x v => Host.reduce IntOp.andi x v reducesTo_S1x4_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S8388608x2 .f32) (main_arg1 : FVec F S4x2 .f32) (main_arg2 : FVec F S4 .f32) (main_arg3 : FVec F S10x4x4 .f32) (main_arg4 : FVec F S10x4 .f32) (main_arg5 : FVec F S1x4 .f32) (main_arg6 : FVec F S1 .f32) : IVec S_ 1 :=
  let main_v0 : FVec F S8388608x2 .f32 := Host.absf main_arg0
  let main_cst : FVec F S_ .f32 := constant S_ .f32 0x7F800000#32
  let main_v1 : FVec F S8388608x2 .f32 := broadcastInDim S8388608x2 ![] bcast_S_S8388608x2 main_cst
  let main_v2 : IVec S8388608x2 1 := cmpf .olt main_v0 main_v1
  let main_c : IVec S_ 1 := constantI S_ 1 1#1
  let main_v3 : IVec S_ 1 := (fun x v => Host.reduce IntOp.andi x v reducesTo_S8388608x2_S_d0_1 h_S_) main_v2 main_c
  let main_v4 : FVec F S4x2 .f32 := Host.absf main_arg1
  let main_cst_0 : FVec F S_ .f32 := constant S_ .f32 0x7F800000#32
  let main_v5 : FVec F S4x2 .f32 := broadcastInDim S4x2 ![] bcast_S_S4x2 main_cst_0
  let main_v6 : IVec S4x2 1 := cmpf .olt main_v4 main_v5
  let main_c_1 : IVec S_ 1 := constantI S_ 1 1#1
  let main_v7 : IVec S_ 1 := (fun x v => Host.reduce IntOp.andi x v reducesTo_S4x2_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S10x4x4 .f32 := Host.absf main_arg3
  let main_cst_4 : FVec F S_ .f32 := constant S_ .f32 0x7F800000#32
  let main_v15 : FVec F S10x4x4 .f32 := broadcastInDim S10x4x4 ![] bcast_S_S10x4x4 main_cst_4
  let main_v16 : IVec S10x4x4 1 := cmpf .olt main_v14 main_v15
  fn_part1 (F := F) main_arg4 main_arg5 main_arg6 main_v13 main_v16
-- ==== Kernel.lean ====
abbrev S8388608x2 : Shape := ⟨2, ![8388608, 2]⟩
abbrev S4x2 : Shape := ⟨2, ![4, 2]⟩
abbrev S4 : Shape := ⟨1, ![4]⟩
abbrev S10x4x4 : Shape := ⟨3, ![10, 4, 4]⟩
abbrev S10x4 : Shape := ⟨2, ![10, 4]⟩
abbrev S1x4 : Shape := ⟨2, ![1, 4]⟩
abbrev S1 : Shape := ⟨1, ![1]⟩
abbrev S8388608x1 : Shape := ⟨2, ![8388608, 1]⟩
abbrev S8192x2 : Shape := ⟨2, ![8192, 2]⟩
abbrev S8192x1 : Shape := ⟨2, ![8192, 1]⟩
abbrev S8192x4 : Shape := ⟨2, ![8192, 4]⟩
abbrev S1x4x4 : Shape := ⟨3, ![1, 4, 4]⟩
abbrev S4x4 : Shape := ⟨2, ![4, 4]⟩
abbrev S1x1 : Shape := ⟨2, ![1, 1]⟩

abbrev nBuf : Space → Nat
  | .hbm => 8
  | .vmem => 10
  | .smem => 0
  | _ => 0

abbrev bufTy : (tb : Table) → Fin (tcTables nBuf tb) → BufTy
  | .hbm, ⟨0, _⟩ => ⟨S8388608x2, .f32⟩
  | .hbm, ⟨1, _⟩ => ⟨S4x2, .f32⟩
  | .hbm, ⟨2, _⟩ => ⟨S4, .f32⟩
  | .hbm, ⟨3, _⟩ => ⟨S10x4x4, .f32⟩
  | .hbm, ⟨4, _⟩ => ⟨S10x4, .f32⟩
  | .hbm, ⟨5, _⟩ => ⟨S1x4, .f32⟩
  | .hbm, ⟨6, _⟩ => ⟨S1, .f32⟩
  | .hbm, ⟨7, _⟩ => ⟨S8388608x1, .f32⟩
  | .local _ .vmem, ⟨0, _⟩ => ⟨S8192x2, .f32⟩
  | .local _ .vmem, ⟨1, _⟩ => ⟨S8192x2, .f32⟩
  | .local _ .vmem, ⟨2, _⟩ => ⟨S4x2, .f32⟩
  | .local _ .vmem, ⟨3, _⟩ => ⟨S4, .f32⟩
  | .local _ .vmem, ⟨4, _⟩ => ⟨S10x4x4, .f32⟩
  | .local _ .vmem, ⟨5, _⟩ => ⟨S10x4, .f32⟩
  | .local _ .vmem, ⟨6, _⟩ => ⟨S1x4, .f32⟩
  | .local _ .vmem, ⟨7, _⟩ => ⟨S1, .f32⟩
  | .local _ .vmem, ⟨8, _⟩ => ⟨S8192x1, .f32⟩
  | .local _ .vmem, ⟨9, _⟩ => ⟨S8192x1, .f32⟩
  | _, _ => ⟨S8388608x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x4x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S8192x2_S8192x2_0_0 : ∀ a, (![0, 0] : Fin 2 → Nat) a + S8192x2.size a ≤ S8192x2.size a
  h_S8192x2 : 0 < S8192x2.numel
  inb_S4x2_S4x2_0_0 : ∀ a, (![0, 0] : Fin 2 → Nat) a + S4x2.size a ≤ S4x2.size a
  h_S4x2 : 0 < S4x2.numel
  inb_S4_S4_0 : ∀ a, (![0] : Fin 1 → Nat) a + S4.size a ≤ S4.size a
  h_S4 : 0 < S4.numel
  shapeCasts_S4_S1x4 : S4.ShapeCasts S1x4
  broadcasts_S1x4_S8192x4 : S1x4.Broadcasts S8192x4
  inb_S10x4x4_S1x4x4_0_0_0 : ∀ a, (![0, 0, 0] : Fin 3 → Nat) a + S1x4x4.size a ≤ S10x4x4.size a
  h_S1x4x4 : 0 < S1x4x4.numel
  shapeCasts_S1x4x4_S4x4 : S1x4x4.ShapeCasts S4x4
  inb_S10x4_S1x4_0_0 : ∀ a, (![0, 0] : Fin 2 → Nat) a + S1x4.size a ≤ S10x4.size a
  h_S1x4 : 0 < S1x4.numel
  shapeCasts_S1x4_S4 : S1x4.ShapeCasts S4
  inb_S10x4x4_S1x4x4_1_0_0 : ∀ a, (![1, 0, 0] : Fin 3 → Nat) a + S1x4x4.size a ≤ S10x4x4.size a
  inb_S10x4_S1x4_1_0 : ∀ a, (![1, 0] : Fin 2 → Nat) a + S1x4.size a ≤ S10x4.size a
  inb_S10x4x4_S1x4x4_2_0_0 : ∀ a, (![2, 0, 0] : Fin 3 → Nat) a + S1x4x4.size a ≤ S10x4x4.size a
  inb_S10x4_S1x4_2_0 : ∀ a, (![2, 0] : Fin 2 → Nat) a + S1x4.size a ≤ S10x4.size a
  inb_S10x4x4_S1x4x4_3_0_0 : ∀ a, (![3, 0, 0] : Fin 3 → Nat) a + S1x4x4.size a ≤ S10x4x4.size a
  inb_S10x4_S1x4_3_0 : ∀ a, (![3, 0] : Fin 2 → Nat) a + S1x4.size a ≤ S10x4.size a
  inb_S10x4x4_S1x4x4_4_0_0 : ∀ a, (![4, 0, 0] : Fin 3 → Nat) a + S1x4x4.size a ≤ S10x4x4.size a
  inb_S10x4_S1x4_4_0 : ∀ a, (![4, 0] : Fin 2 → Nat) a + S1x4.size a ≤ S10x4.size a
  inb_S10x4x4_S1x4x4_5_0_0 : ∀ a, (![5, 0, 0] : Fin 3 → Nat) a + S1x4x4.size a ≤ S10x4x4.size a
  inb_S10x4_S1x4_5_0 : ∀ a, (![5, 0] : Fin 2 → Nat) a + S1x4.size a ≤ S10x4.size a
  inb_S10x4x4_S1x4x4_6_0_0 : ∀ a, (![6, 0, 0] : Fin 3 → Nat) a + S1x4x4.size a ≤ S10x4x4.size a
  inb_S10x4_S1x4_6_0 : ∀ a, (![6, 0] : Fin 2 → Nat) a + S1x4.size a ≤ S10x4.size a
  inb_S10x4x4_S1x4x4_7_0_0 : ∀ a, (![7, 0, 0] : Fin 3 → Nat) a + S1x4x4.size a ≤ S10x4x4.size a
  inb_S10x4_S1x4_7_0 : ∀ a, (![7, 0] : Fin 2 → Nat) a + S1x4.size a ≤ S10x4.size a
  inb_S10x4x4_S1x4x4_8_0_0 : ∀ a, (![8, 0, 0] : Fin 3 → Nat) a + S1x4x4.size a ≤ S10x4x4.size a
  inb_S10x4_S1x4_8_0 : ∀ a, (![8, 0] : Fin 2 → Nat) a + S1x4.size a ≤ S10x4.size a
  inb_S10x4x4_S1x4x4_9_0_0 : ∀ a, (![9, 0, 0] : Fin 3 → Nat) a + S1x4x4.size a ≤ S10x4x4.size a
  inb_S10x4_S1x4_9_0 : ∀ a, (![9, 0] : Fin 2 → Nat) a + S1x4.size a ≤ S10x4.size a
  inb_S1x4_S1x4_0_0 : ∀ a, (![0, 0] : Fin 2 → Nat) a + S1x4.size a ≤ S1x4.size a
  inb_S1_S1_0 : ∀ a, (![0] : Fin 1 → Nat) a + S1.size a ≤ S1.size a
  h_S1 : 0 < S1.numel
  shapeCasts_S1_S1x1 : S1.ShapeCasts S1x1
  broadcasts_S1x1_S8192x1 : S1x1.Broadcasts S8192x1
  inb_S8192x1_S8192x1_0_0 : ∀ a, (![0, 0] : Fin 2 → Nat) a + S8192x1.size a ≤ S8192x1.size a
  h_S8192x1 : 0 < S8192x1.numel
  dot_S8192x2_S4x2_S8192x4_1_1_0_0_n_n_wf : DotDims.WF S8192x2 S4x2 S8192x4 [1] [1] [0] [0] [] []
  dot_S8192x4_S4x4_S8192x4_1_1_0_0_n_n_wf : DotDims.WF S8192x4 S4x4 S8192x4 [1] [1] [0] [0] [] []
  dot_S8192x4_S1x4_S8192x1_1_1_0_0_n_n_wf : DotDims.WF S8192x4 S1x4 S8192x1 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x2.size a ≤ S8388608x2.size a
  hwx0_0 : ∀ i : grid0.Coords, EltTy.bits .f32 = 32 ∨ (Rect.block (s := S8388608x2) S8192x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x2.size a ≤ S4x2.size a
  hwx0_1 : ∀ i : grid0.Coords, EltTy.bits .f32 = 32 ∨ (Rect.block (s := S4x2) S4x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4.size a ≤ S4.size a
  hwx0_2 : ∀ i : grid0.Coords, EltTy.bits .f32 = 32 ∨ (Rect.block (s := S4) S4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x4x4.size a ≤ S10x4x4.size a
  hwx0_3 : ∀ i : grid0.Coords, EltTy.bits .f32 = 32 ∨ (Rect.block (s := S10x4x4) S10x4x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x4.size a ≤ S10x4.size a
  hwx0_4 : ∀ i : grid0.Coords, EltTy.bits .f32 = 32 ∨ (Rect.block (s := S10x4) S10x4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4.size a ≤ S1x4.size a
  hwx0_5 : ∀ i : grid0.Coords, EltTy.bits .f32 = 32 ∨ (Rect.block (s := S1x4) S1x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x1.size a ≤ S8388608x1.size a
  hwx0_7 : ∀ i : grid0.Coords, EltTy.bits .f32 = 32 ∨ (Rect.block (s := S8388608x1) S8192x1.size (cc0_transform_7 i) (hinb0_7 i)).WholeWords (EltTy.packing .f32)

variable [Facts₀]

def dot_S8192x2_S4x2_S8192x4_1_1_0_0_n_n : DotDims S8192x2 S4x2 S8192x4 where
  lhsContracting := [1]
  rhsContracting := [1]
  lhsNonContracting := [0]
  rhsNonContracting := [0]
  lhsBatch := []
  rhsBatch := []
  wf := dot_S8192x2_S4x2_S8192x4_1_1_0_0_n_n_wf
def dot_S8192x4_S4x4_S8192x4_1_1_0_0_n_n : DotDims S8192x4 S4x4 S8192x4 where
  lhsContracting := [1]
  rhsContracting := [1]
  lhsNonContracting := [0]
  rhsNonContracting := [0]
  lhsBatch := []
  rhsBatch := []
  wf := dot_S8192x4_S4x4_S8192x4_1_1_0_0_n_n_wf
def dot_S8192x4_S1x4_S8192x1_1_1_0_0_n_n : DotDims S8192x4 S1x4 S8192x1 where
  lhsContracting := [1]
  rhsContracting := [1]
  lhsNonContracting := [0]
  rhsNonContracting := [0]
  lhsBatch := []
  rhsBatch := []
  wf := dot_S8192x4_S1x4_S8192x1_1_1_0_0_n_n_wf

abbrev win0_0 : Pipeline.Window sig grid0 :=
  Pipeline.Window.ofSpec (Memref.whole main_arg0) S8192x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S10x4x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S10x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S8192x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8388608x2 : Shape := ⟨2, ![8388608, 2]⟩
abbrev S4x2 : Shape := ⟨2, ![4, 2]⟩
abbrev S4 : Shape := ⟨1, ![4]⟩
abbrev S10x4x4 : Shape := ⟨3, ![10, 4, 4]⟩
abbrev S10x4 : Shape := ⟨2, ![10, 4]⟩
abbrev S1x4 : Shape := ⟨2, ![1, 4]⟩
abbrev S1 : Shape := ⟨1, ![1]⟩
abbrev S2x4 : Shape := ⟨2, ![2, 4]⟩
abbrev S8388608x4 : Shape := ⟨2, ![8388608, 4]⟩
abbrev S_ : Shape := ⟨0, ![]⟩
abbrev S1x4x4 : Shape := ⟨3, ![1, 4, 4]⟩
abbrev S4x4 : Shape := ⟨2, ![4, 4]⟩
abbrev S4x1 : Shape := ⟨2, ![4, 1]⟩
abbrev S8388608x1 : Shape := ⟨2, ![8388608, 1]⟩
abbrev S1x1 : Shape := ⟨2, ![1, 1]⟩

abbrev nBuf : Space → Nat
  | .hbm => 140
  | .vmem => 0
  | .smem => 0
  | _ => 0

abbrev hbmTy0_0 (i : Nat) : BufTy := match i % 128 with
  | 0 => ⟨S8388608x2, .f32⟩
  | 1 => ⟨S4x2, .f32⟩
  | 2 => ⟨S4, .f32⟩
  | 3 => ⟨S10x4x4, .f32⟩
  | 4 => ⟨S10x4, .f32⟩
  | 5 => ⟨S1x4, .f32⟩
  | 6 => ⟨S1, .f32⟩
  | 7 => ⟨S2x4, .f32⟩
  | 8 => ⟨S8388608x4, .f32⟩
  | 9 => ⟨S1x4, .f32⟩
  | 10 => ⟨S8388608x4, .f32⟩
  | 11 => ⟨S8388608x4, .f32⟩
  | 12 => ⟨S_, .f32⟩
  | 13 => ⟨S8388608x4, .f32⟩
  | 14 => ⟨S8388608x4, .f32⟩
  | 15 => ⟨S1x4x4, .f32⟩
  | 16 => ⟨S4x4, .f32⟩
  | 17 => ⟨S4x4, .f32⟩
  | 18 => ⟨S8388608x4, .f32⟩
  | 19 => ⟨S1x4, .f32⟩
  | 20 => ⟨S4, .f32⟩
  | 21 => ⟨S1x4, .f32⟩
  | 22 => ⟨S8388608x4, .f32⟩
  | 23 => ⟨S8388608x4, .f32⟩
  | 24 => ⟨S_, .f32⟩
  | 25 => ⟨S8388608x4, .f32⟩
  | 26 => ⟨S8388608x4, .f32⟩
  | 27 => ⟨S1x4x4, .f32⟩
  | 28 => ⟨S4x4, .f32⟩
  | 29 => ⟨S4x4, .f32⟩
  | 30 => ⟨S8388608x4, .f32⟩
  | 31 => ⟨S1x4, .f32⟩
  | 32 => ⟨S4, .f32⟩
  | 33 => ⟨S1x4, .f32⟩
  | 34 => ⟨S8388608x4, .f32⟩
  | 35 => ⟨S8388608x4, .f32⟩
  | 36 => ⟨S_, .f32⟩
  | 37 => ⟨S8388608x4, .f32⟩
  | 38 => ⟨S8388608x4, .f32⟩
  | 39 => ⟨S1x4x4, .f32⟩
  | 40 => ⟨S4x4, .f32⟩
  | 41 => ⟨S4x4, .f32⟩
  | 42 => ⟨S8388608x4, .f32⟩
  | 43 => ⟨S1x4, .f32⟩
  | 44 => ⟨S4, .f32⟩
  | 45 => ⟨S1x4, .f32⟩
  | 46 => ⟨S8388608x4, .f32⟩
  | 47 => ⟨S8388608x4, .f32⟩
  | 48 => ⟨S_, .f32⟩
  | 49 => ⟨S8388608x4, .f32⟩
  | 50 => ⟨S8388608x4, .f32⟩
  | 51 => ⟨S1x4x4, .f32⟩
  | 52 => ⟨S4x4, .f32⟩
  | 53 => ⟨S4x4, .f32⟩
  | 54 => ⟨S8388608x4, .f32⟩
  | 55 => ⟨S1x4, .f32⟩
  | 56 => ⟨S4, .f32⟩
  | 57 => ⟨S1x4, .f32⟩
  | 58 => ⟨S8388608x4, .f32⟩
  | 59 => ⟨S8388608x4, .f32⟩
  | 60 => ⟨S_, .f32⟩
  | 61 => ⟨S8388608x4, .f32⟩
  | 62 => ⟨S8388608x4, .f32⟩
  | 63 => ⟨S1x4x4, .f32⟩
  | 64 => ⟨S4x4, .f32⟩
  | 65 => ⟨S4x4, .f32⟩
  | 66 => ⟨S8388608x4, .f32⟩
  | 67 => ⟨S1x4, .f32⟩
  | 68 => ⟨S4, .f32⟩
  | 69 => ⟨S1x4, .f32⟩
  | 70 => ⟨S8388608x4, .f32⟩
  | 71 => ⟨S8388608x4, .f32⟩
  | 72 => ⟨S_, .f32⟩
  | 73 => ⟨S8388608x4, .f32⟩
  | 74 => ⟨S8388608x4, .f32⟩
  | 75 => ⟨S1x4x4, .f32⟩
  | 76 => ⟨S4x4, .f32⟩
  | 77 => ⟨S4x4, .f32⟩
  | 78 => ⟨S8388608x4, .f32⟩
  | 79 => ⟨S1x4, .f32⟩
  | 80 => ⟨S4, .f32⟩
  | 81 => ⟨S1x4, .f32⟩
  | 82 => ⟨S8388608x4, .f32⟩
  | 83 => ⟨S8388608x4, .f32⟩
  | 84 => ⟨S_, .f32⟩
  | 85 => ⟨S8388608x4, .f32⟩
  | 86 => ⟨S8388608x4, .f32⟩
  | 87 => ⟨S1x4x4, .f32⟩
  | 88 => ⟨S4x4, .f32⟩
  | 89 => ⟨S4x4, .f32⟩
  | 90 => ⟨S8388608x4, .f32⟩
  | 91 => ⟨S1x4, .f32⟩
  | 92 => ⟨S4, .f32⟩
  | 93 => ⟨S1x4, .f32⟩
  | 94 => ⟨S8388608x4, .f32⟩
  | 95 => ⟨S8388608x4, .f32⟩
  | 96 => ⟨S_, .f32⟩
  | 97 => ⟨S8388608x4, .f32⟩
  | 98 => ⟨S8388608x4, .f32⟩
  | 99 => ⟨S1x4x4, .f32⟩
  | 100 => ⟨S4x4, .f32⟩
  | 101 => ⟨S4x4, .f32⟩
  | 102 => ⟨S8388608x4, .f32⟩
  | 103 => ⟨S1x4, .f32⟩
  | 104 => ⟨S4, .f32⟩
  | 105 => ⟨S1x4, .f32⟩
  | 106 => ⟨S8388608x4, .f32⟩
  | 107 => ⟨S8388608x4, .f32⟩
  | 108 => ⟨S_, .f32⟩
  | 109 => ⟨S8388608x4, .f32⟩
  | 110 => ⟨S8388608x4, .f32⟩
  | 111 => ⟨S1x4x4, .f32⟩
  | 112 => ⟨S4x4, .f32⟩
  | 113 => ⟨S4x4, .f32⟩
  | 114 => ⟨S8388608x4, .f32⟩
  | 115 => ⟨S1x4, .f32⟩
  | 116 => ⟨S4, .f32⟩
  | 117 => ⟨S1x4, .f32⟩
  | 118 => ⟨S8388608x4, .f32⟩
  | 119 => ⟨S8388608x4, .f32⟩
  | 120 => ⟨S_, .f32⟩
  | 121 => ⟨S8388608x4, .f32⟩
  | 122 => ⟨S8388608x4, .f32⟩
  | 123 => ⟨S1x4x4, .f32⟩
  | 124 => ⟨S4x4, .f32⟩
  | 125 => ⟨S4x4, .f32⟩
  | 126 => ⟨S8388608x4, .f32⟩
  | 127 => ⟨S1x4, .f32⟩
  | _ => ⟨S8388608x2, .f32⟩

abbrev hbmTy0_1 (i : Nat) : BufTy := match i % 128 with
  | 0 => ⟨S4, .f32⟩
  | 1 => ⟨S1x4, .f32⟩
  | 2 => ⟨S8388608x4, .f32⟩
  | 3 => ⟨S8388608x4, .f32⟩
  | 4 => ⟨S_, .f32⟩
  | 5 => ⟨S8388608x4, .f32⟩
  | 6 => ⟨S8388608x4, .f32⟩
  | 7 => ⟨S4x1, .f32⟩
  | 8 => ⟨S8388608x1, .f32⟩
  | 9 => ⟨S1x1, .f32⟩
  | 10 => ⟨S8388608x1, .f32⟩
  | 11 => ⟨S8388608x1, .f32⟩
  | _ => ⟨S8388608x2, .f32⟩

abbrev hbmTy (i : Nat) : BufTy := match i / 128 with
  | 0 => hbmTy0_0 i
  | 1 => hbmTy0_1 i
  | _ => ⟨S8388608x2, .f32⟩

abbrev bufTy : (tb : Table) → Fin (tcTables nBuf tb) → BufTy
  | .hbm, ⟨i, _⟩ => hbmTy i
  | _, _ => ⟨S8388608x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call1_cst : Ref sig .tc := ⟨.hbm, 24, rfl⟩
abbrev main_call1_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call2_cst : Ref sig .tc := ⟨.hbm, 36, rfl⟩
abbrev main_call2_v0 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call3_cst : Ref sig .tc := ⟨.hbm, 48, rfl⟩
abbrev main_call3_v0 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call4_cst : Ref sig .tc := ⟨.hbm, 60, rfl⟩
abbrev main_call4_v0 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_call5_cst : Ref sig .tc := ⟨.hbm, 72, rfl⟩
abbrev main_call5_v0 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_call6_cst : Ref sig .tc := ⟨.hbm, 84, rfl⟩
abbrev main_call6_v0 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_call7_cst : Ref sig .tc := ⟨.hbm, 96, rfl⟩
abbrev main_call7_v0 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_call8_cst : Ref sig .tc := ⟨.hbm, 108, rfl⟩
abbrev main_call8_v0 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_call9_cst : Ref sig .tc := ⟨.hbm, 120, rfl⟩
abbrev main_call9_v0 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_call10_cst : Ref sig .tc := ⟨.hbm, 132, rfl⟩
abbrev main_call10_v0 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩

abbrev nD : Nat := 1
abbrev τ : Topo := Topo.v7x

variable {F : FTy → Type} [FloatOps F]

class Facts₀ : Prop where
  transposes_S4x2_S2x4_1_0 : S4x2.Transposes [1, 0] S2x4
  bcast_S4_S1x4_1 : S4.BroadcastsInDim S1x4 (![1] : Fin 1 → Fin S1x4.rank)
  bcast_S1x4_S8388608x4_0_1 : S1x4.BroadcastsInDim S8388608x4 (![0, 1] : Fin 2 → Fin S8388608x4.rank)
  bcast_S_S8388608x4 : S_.BroadcastsInDim S8388608x4 (![] : Fin 0 → Fin S8388608x4.rank)
  slices_S10x4x4_S1x4x4_0_0_0 : S10x4x4.Slices ![0, 0, 0] S1x4x4
  shapeCasts_S1x4x4_S4x4 : S1x4x4.ShapeCasts S4x4
  transposes_S4x4_S4x4_1_0 : S4x4.Transposes [1, 0] S4x4
  slices_S10x4_S1x4_0_0 : S10x4.Slices ![0, 0] S1x4
  shapeCasts_S1x4_S4 : S1x4.ShapeCasts S4
  slices_S10x4x4_S1x4x4_1_0_0 : S10x4x4.Slices ![1, 0, 0] S1x4x4
  slices_S10x4_S1x4_1_0 : S10x4.Slices ![1, 0] S1x4
  slices_S10x4x4_S1x4x4_2_0_0 : S10x4x4.Slices ![2, 0, 0] S1x4x4
  slices_S10x4_S1x4_2_0 : S10x4.Slices ![2, 0] S1x4
  slices_S10x4x4_S1x4x4_3_0_0 : S10x4x4.Slices ![3, 0, 0] S1x4x4
  slices_S10x4_S1x4_3_0 : S10x4.Slices ![3, 0] S1x4
  slices_S10x4x4_S1x4x4_4_0_0 : S10x4x4.Slices ![4, 0, 0] S1x4x4
  slices_S10x4_S1x4_4_0 : S10x4.Slices ![4, 0] S1x4
  slices_S10x4x4_S1x4x4_5_0_0 : S10x4x4.Slices ![5, 0, 0] S1x4x4
  slices_S10x4_S1x4_5_0 : S10x4.Slices ![5, 0] S1x4
  slices_S10x4x4_S1x4x4_6_0_0 : S10x4x4.Slices ![6, 0, 0] S1x4x4
  slices_S10x4_S1x4_6_0 : S10x4.Slices ![6, 0] S1x4
  slices_S10x4x4_S1x4x4_7_0_0 : S10x4x4.Slices ![7, 0, 0] S1x4x4
  slices_S10x4_S1x4_7_0 : S10x4.Slices ![7, 0] S1x4
  slices_S10x4x4_S1x4x4_8_0_0 : S10x4x4.Slices ![8, 0, 0] S1x4x4
  slices_S10x4_S1x4_8_0 : S10x4.Slices ![8, 0] S1x4
  slices_S10x4x4_S1x4x4_9_0_0 : S10x4x4.Slices ![9, 0, 0] S1x4x4
  slices_S10x4_S1x4_9_0 : S10x4.Slices ![9, 0] S1x4
  transposes_S1x4_S4x1_1_0 : S1x4.Transposes [1, 0] S4x1
  bcast_S1_S1x1_1 : S1.BroadcastsInDim S1x1 (![1] : Fin 1 → Fin S1x1.rank)
  bcast_S1x1_S8388608x1_0_1 : S1x1.BroadcastsInDim S8388608x1 (![0, 1] : Fin 2 → Fin S8388608x1.rank)
  dot_S8388608x2_S2x4_S8388608x4_1_0_0_1_n_n_wf : DotDims.WF S8388608x2 S2x4 S8388608x4 [1] [0] [0] [1] [] []
  dot_S8388608x4_S4x4_S8388608x4_1_0_0_1_n_n_wf : DotDims.WF S8388608x4 S4x4 S8388608x4 [1] [0] [0] [1] [] []
  dot_S8388608x4_S4x1_S8388608x1_1_0_0_1_n_n_wf : DotDims.WF S8388608x4 S4x1 S8388608x1 [1] [0] [0] [1] [] []

variable [Facts₀]

def dot_S8388608x2_S2x4_S8388608x4_1_0_0_1_n_n : DotDims S8388608x2 S2x4 S8388608x4 where
  lhsContracting := [1]
  rhsContracting := [0]
  lhsNonContracting := [0]
  rhsNonContracting := [1]
  lhsBatch := []
  rhsBatch := []
  wf := dot_S8388608x2_S2x4_S8388608x4_1_0_0_1_n_n_wf
def dot_S8388608x4_S4x4_S8388608x4_1_0_0_1_n_n : DotDims S8388608x4 S4x4 S8388608x4 where
  lhsContracting := [1]
  rhsContracting := [0]
  lhsNonContracting := [0]
  rhsNonContracting := [1]
  lhsBatch := []
  rhsBatch := []
  wf := dot_S8388608x4_S4x4_S8388608x4_1_0_0_1_n_n_wf
def dot_S8388608x4_S4x1_S8388608x1_1_0_0_1_n_n : DotDims S8388608x4 S4x1 S8388608x1 where
  lhsContracting := [1]
  rhsContracting := [0]
  lhsNonContracting := [0]
  rhsNonContracting := [1]
  lhsBatch := []
  rhsBatch := []
  wf := dot_S8388608x4_S4x1_S8388608x1_1_0_0_1_n_n_wf

class Facts : Prop extends Facts₀ where

variable [Facts]
-- ==== Proof.RowNet.lean ====
/-
  The function both programs compute, stated once on one ROW of the batch.

  The network is a chain of dense layers on a row vector: a layer with weight matrix `w` (one row of `w` per
  output feature) and bias `b` sends `h` to `j ↦ (∑ k, h k * w j k) + b j`. The first layer takes the two input
  features to four, ten hidden layers take four to four, each followed by `max · 0`, and the last layer takes four
  features to one with no maximum. Rows of the batch do not interact, so the whole result array is this one function
  applied to each row of `x` (`G`). Everything is on the extended reals; no law beyond the definitions is used, so no
  finiteness is needed anywhere.
-/
import Idealize.ShloMosaic.PureOps.Ideal
import Idealize.ShloMosaic.Lib.ValueIdx

noncomputable section

open scoped BigOperators

namespace Cert.RowNet

open Idealize.ShloMosaic Idealize.ShloMosaic.ValueIdx

/-- One dense layer on a row: output feature `j` is the dot product of the row with row `j` of the weights, plus
    bias `j`. -/
def dense {i o : ℕ} (w : Fin o → Fin i → EReal) (b : Fin o → EReal) (h : Fin i → EReal) : Fin o → EReal :=
  fun j => (∑ k : Fin i, h k * w j k) + b j

/-- The rectifier, feature by feature. -/
def relu {n : ℕ} (v : Fin n → EReal) : Fin n → EReal := fun j => max (v j) 0

/-- The input layer: two features to four, rectified. -/
def first (W0 : (⟨2, ![4, 2]⟩ : Shape).Idx → EReal) (b0 : (⟨1, ![4]⟩ : Shape).Idx → EReal) (x : Fin 2 → EReal) :
    Fin 4 → EReal :=
  relu (dense (fun j k => W0 (ix2 j k)) (fun j => b0 (ix1 j)) x)

/-- Hidden layer `n` (of ten): four features to four through slice `n` of the stacked weights and biases,
    rectified. -/
def hid (Wh : (⟨3, ![10, 4, 4]⟩ : Shape).Idx → EReal) (bh : (⟨2, ![10, 4]⟩ : Shape).Idx → EReal) (n : ℕ) (hn : n < 10)
    (h : Fin 4 → EReal) : Fin 4 → EReal :=
  relu (dense (fun j k => Wh (ix3 (⟨n, hn⟩ : Fin 10) j k)) (fun j => bh (ix2 (⟨n, hn⟩ : Fin 10) j)) h)

/-- The output layer: four features to one, not rectified. -/
def last (Wout : (⟨2, ![1, 4]⟩ : Shape).Idx → EReal) (bout : (⟨1, ![1]⟩ : Shape).Idx → EReal) (h : Fin 4 → EReal) :
    Fin 1 → EReal :=
  dense (fun j k => Wout (ix2 j k)) (fun j => bout (ix1 j)) h

/-- The ten hidden layers in order. -/
def hidden (Wh : (⟨3, ![10, 4, 4]⟩ : Shape).Idx → EReal) (bh : (⟨2, ![10, 4]⟩ : Shape).Idx → EReal)
    (h : Fin 4 → EReal) : Fin 4 → EReal :=
  hid Wh bh 9 (by decide) (hid Wh bh 8 (by decide) (hid Wh bh 7 (by decide) (hid Wh bh 6 (by decide)
    (hid Wh bh 5 (by decide) (hid Wh bh 4 (by decide) (hid Wh bh 3 (by decide) (hid Wh bh 2 (by decide)
      (hid Wh bh 1 (by decide) (hid Wh bh 0 (by decide) h)))))))))

/-- The network on one row. -/
def net (W0 : (⟨2, ![4, 2]⟩ : Shape).Idx → EReal) (b0 : (⟨1, ![4]⟩ : Shape).Idx → EReal)
    (Wh : (⟨3, ![10, 4, 4]⟩ : Shape).Idx → EReal) (bh : (⟨2, ![10, 4]⟩ : Shape).Idx → EReal)
    (Wout : (⟨2, ![1, 4]⟩ : Shape).Idx → EReal) (bout : (⟨1, ![1]⟩ : Shape).Idx → EReal) (x : Fin 2 → EReal) :
    Fin 1 → EReal :=
  last Wout bout (hidden Wh bh (first W0 b0 x))

/-- Row `r` of the batch, as a vector of its two features. -/
def rowOf (X : (⟨2, ![8388608, 2]⟩ : Shape).Idx → EReal) (r : Fin 8388608) : Fin 2 → EReal := fun k => X (ix2 r k)

/-- THE RESULT ARRAY: at `(r, u)` the network's one output on row `r` of `X`. -/
def G (X : (⟨2, ![8388608, 2]⟩ : Shape).Idx → EReal)
    (W0 : (⟨2, ![4, 2]⟩ : Shape).Idx → EReal) (b0 : (⟨1, ![4]⟩ : Shape).Idx → EReal)
    (Wh : (⟨3, ![10, 4, 4]⟩ : Shape).Idx → EReal) (bh : (⟨2, ![10, 4]⟩ : Shape).Idx → EReal)
    (Wout : (⟨2, ![1, 4]⟩ : Shape).Idx → EReal) (bout : (⟨1, ![1]⟩ : Shape).Idx → EReal) :
    (⟨2, ![8388608, 1]⟩ : Shape).Idx → EReal :=
  fun i => net W0 b0 Wh bh Wout bout (rowOf X ⟨(i 0).val, idx2_lt0 i⟩) ⟨(i 1).val, idx2_lt1 i⟩

/-- `G` at an index written by coordinates. -/
theorem G_ix2 (X : (⟨2, ![8388608, 2]⟩ : Shape).Idx → EReal)
    (W0 : (⟨2, ![4, 2]⟩ : Shape).Idx → EReal) (b0 : (⟨1, ![4]⟩ : Shape).Idx → EReal)
    (Wh : (⟨3, ![10, 4, 4]⟩ : Shape).Idx → EReal) (bh : (⟨2, ![10, 4]⟩ : Shape).Idx → EReal)
    (Wout : (⟨2, ![1, 4]⟩ : Shape).Idx → EReal) (bout : (⟨1, ![1]⟩ : Shape).Idx → EReal)
    (r : Fin 8388608) (u : Fin 1) :
    G X W0 b0 Wh bh Wout bout (ix2 r u) = net W0 b0 Wh bh Wout bout (rowOf X r) u := rfl

end Cert.RowNet

end
-- ==== Proof.KernelLayers.lean ====
/-
  The kernel's body, one layer at a time, read on ONE ROW of the block it is given.

  A layer of the body is a product of the activations `h` (one row per batch element of the block) with a weight
  matrix whose ROWS are the output features (both operands contract their second axis), accumulated into zero; then
  the bias, laid out as a row and repeated down the block; then, except in the last layer, the maximum with zero.
  Read at row `p`, feature `q`, that is `max ((∑ k, h (p, k) * w (q, k)) + b q) 0`: it depends on row `p` of `h` only.
  So if row `p` of `h` is a vector `g`, row `p` of the layer's result is the specification's layer applied to `g`
  (`first_row`, `hid_row`, `last_row`), and the layers chain row by row. The ten hidden layers' weights and biases are
  slices of two stacked arrays; slice `n` read through the load and the casts that drop its unit axis is the stacked
  array at leading coordinate `n` (`wslice`, `bslice`).
-/
import proofs.«174196_j25718264169060_1_alg».proof.Proof.Gen.KernelIdeal
import proofs.«174196_j25718264169060_1_alg».proof.Proof.RowNet
import Idealize.ShloMosaic.Lib.ValueIdx
import Idealize.ShloMosaic.Lib.ValueLayout
import Idealize.ShloMosaic.Lib.Pipeline.Value
import Idealize.ShloMosaic.Lib.Pipeline.FrameBody
import Idealize.ShloMosaic.PureOps.Ideal.Laws

noncomputable section

open scoped BigOperators

namespace Cert.KernelLayers

open Idealize.ShloMosaic Idealize.ShloMosaic.ValueIdx Cert.KernelIdeal Cert.KernelIdeal.Gen Cert.RowNet

/-! ## The three products read at an index

Each product contracts axis 1 of both operands: the left operand's index at output `(p, q)` and contraction
coordinate `k` is `(p, k)`, the right operand's is `(q, k)`. -/

theorem lhs22_0 (i : S8192x4.Idx) (q : dot_S8192x2_S4x2_S8192x4_1_1_0_0_n_n.contr.Idx) :
    (dot_S8192x2_S4x2_S8192x4_1_1_0_0_n_n.lhsIdx i q 0).val = (i 0).val := by
  unfold DotDims.lhsIdx
  rw [dif_neg (show ¬(0 : Fin S8192x2.rank) ∈ dot_S8192x2_S4x2_S8192x4_1_1_0_0_n_n.lhsBatch by decide), dif_pos (show (0 : Fin S8192x2.rank) ∈ dot_S8192x2_S4x2_S8192x4_1_1_0_0_n_n.lhsNonContracting by decide)]
  rfl
theorem lhs22_1 (i : S8192x4.Idx) (q : dot_S8192x2_S4x2_S8192x4_1_1_0_0_n_n.contr.Idx) :
    (dot_S8192x2_S4x2_S8192x4_1_1_0_0_n_n.lhsIdx i q 1).val = (q ⟨0, by decide⟩).val :=
  dot_S8192x2_S4x2_S8192x4_1_1_0_0_n_n.lhsIdx_val_of_single rfl i q
theorem rhs22_0 (i : S8192x4.Idx) (q : dot_S8192x2_S4x2_S8192x4_1_1_0_0_n_n.contr.Idx) :
    (dot_S8192x2_S4x2_S8192x4_1_1_0_0_n_n.rhsIdx i q 0).val = (i 1).val := by
  unfold DotDims.rhsIdx
  rw [dif_neg (show ¬(0 : Fin S4x2.rank) ∈ dot_S8192x2_S4x2_S8192x4_1_1_0_0_n_n.rhsBatch by decide), dif_pos (show (0 : Fin S4x2.rank) ∈ dot_S8192x2_S4x2_S8192x4_1_1_0_0_n_n.rhsNonContracting by decide)]
  rfl
theorem rhs22_1 (i : S8192x4.Idx) (q : dot_S8192x2_S4x2_S8192x4_1_1_0_0_n_n.contr.Idx) :
    (dot_S8192x2_S4x2_S8192x4_1_1_0_0_n_n.rhsIdx i q 1).val = (q ⟨0, by decide⟩).val :=
  dot_S8192x2_S4x2_S8192x4_1_1_0_0_n_n.rhsIdx_val_of_single rfl i q

/-- The input layer's product: two input features against the four rows of the weights. -/
theorem mat22 (x : FVec Ideal S8192x2 .f32) (w : FVec Ideal S4x2 .f32) (p : Fin 8192) (q : Fin 4) :
    matmul dot_S8192x2_S4x2_S8192x4_1_1_0_0_n_n none x w (constant (F := Ideal) S8192x4 .f32 0x00000000#32) (ix2 p q)
      = ∑ k : Fin 2, x (ix2 p k) * w (ix2 q k) := by
  simp only [matmul]
  rw [Ideal.matmul_constant_zero_apply, ← Equiv.sum_comp (contrEquiv1 dot_S8192x2_S4x2_S8192x4_1_1_0_0_n_n 2 rfl rfl).symm]
  refine Finset.sum_congr rfl fun k _ => ?_
  have hk := contrEquiv1_symm_val dot_S8192x2_S4x2_S8192x4_1_1_0_0_n_n 2 rfl rfl k
  have el : dot_S8192x2_S4x2_S8192x4_1_1_0_0_n_n.lhsIdx (ix2 p q) ((contrEquiv1 dot_S8192x2_S4x2_S8192x4_1_1_0_0_n_n 2 rfl rfl).symm k) = ix2 p k := funext fun a => Fin.ext (by
    match a with
    | ⟨0, _⟩ => exact lhs22_0 _ _
    | ⟨1, _⟩ => exact (lhs22_1 _ _).trans hk)
  have er : dot_S8192x2_S4x2_S8192x4_1_1_0_0_n_n.rhsIdx (ix2 p q) ((contrEquiv1 dot_S8192x2_S4x2_S8192x4_1_1_0_0_n_n 2 rfl rfl).symm k) = ix2 q k := funext fun a => Fin.ext (by
    match a with
    | ⟨0, _⟩ => exact rhs22_0 _ _
    | ⟨1, _⟩ => exact (rhs22_1 _ _).trans hk)
  rw [el, er]

theorem lhs44_0 (i : S8192x4.Idx) (q : dot_S8192x4_S4x4_S8192x4_1_1_0_0_n_n.contr.Idx) :
    (dot_S8192x4_S4x4_S8192x4_1_1_0_0_n_n.lhsIdx i q 0).val = (i 0).val := by
  unfold DotDims.lhsIdx
  rw [dif_neg (show ¬(0 : Fin S8192x4.rank) ∈ dot_S8192x4_S4x4_S8192x4_1_1_0_0_n_n.lhsBatch by decide), dif_pos (show (0 : Fin S8192x4.rank) ∈ dot_S8192x4_S4x4_S8192x4_1_1_0_0_n_n.lhsNonContracting by decide)]
  rfl
theorem lhs44_1 (i : S8192x4.Idx) (q : dot_S8192x4_S4x4_S8192x4_1_1_0_0_n_n.contr.Idx) :
    (dot_S8192x4_S4x4_S8192x4_1_1_0_0_n_n.lhsIdx i q 1).val = (q ⟨0, by decide⟩).val :=
  dot_S8192x4_S4x4_S8192x4_1_1_0_0_n_n.lhsIdx_val_of_single rfl i q
theorem rhs44_0 (i : S8192x4.Idx) (q : dot_S8192x4_S4x4_S8192x4_1_1_0_0_n_n.contr.Idx) :
    (dot_S8192x4_S4x4_S8192x4_1_1_0_0_n_n.rhsIdx i q 0).val = (i 1).val := by
  unfold DotDims.rhsIdx
  rw [dif_neg (show ¬(0 : Fin S4x4.rank) ∈ dot_S8192x4_S4x4_S8192x4_1_1_0_0_n_n.rhsBatch by decide), dif_pos (show (0 : Fin S4x4.rank) ∈ dot_S8192x4_S4x4_S8192x4_1_1_0_0_n_n.rhsNonContracting by decide)]
  rfl
theorem rhs44_1 (i : S8192x4.Idx) (q : dot_S8192x4_S4x4_S8192x4_1_1_0_0_n_n.contr.Idx) :
    (dot_S8192x4_S4x4_S8192x4_1_1_0_0_n_n.rhsIdx i q 1).val = (q ⟨0, by decide⟩).val :=
  dot_S8192x4_S4x4_S8192x4_1_1_0_0_n_n.rhsIdx_val_of_single rfl i q

/-- A hidden layer's product: four features against the four rows of the weights. -/
theorem mat44 (h : FVec Ideal S8192x4 .f32) (w : FVec Ideal S4x4 .f32) (p : Fin 8192) (q : Fin 4) :
    matmul dot_S8192x4_S4x4_S8192x4_1_1_0_0_n_n none h w (constant (F := Ideal) S8192x4 .f32 0x00000000#32) (ix2 p q)
      = ∑ k : Fin 4, h (ix2 p k) * w (ix2 q k) := by
  simp only [matmul]
  rw [Ideal.matmul_constant_zero_apply, ← Equiv.sum_comp (contrEquiv1 dot_S8192x4_S4x4_S8192x4_1_1_0_0_n_n 4 rfl rfl).symm]
  refine Finset.sum_congr rfl fun k _ => ?_
  have hk := contrEquiv1_symm_val dot_S8192x4_S4x4_S8192x4_1_1_0_0_n_n 4 rfl rfl k
  have el : dot_S8192x4_S4x4_S8192x4_1_1_0_0_n_n.lhsIdx (ix2 p q) ((contrEquiv1 dot_S8192x4_S4x4_S8192x4_1_1_0_0_n_n 4 rfl rfl).symm k) = ix2 p k := funext fun a => Fin.ext (by
    match a with
    | ⟨0, _⟩ => exact lhs44_0 _ _
    | ⟨1, _⟩ => exact (lhs44_1 _ _).trans hk)
  have er : dot_S8192x4_S4x4_S8192x4_1_1_0_0_n_n.rhsIdx (ix2 p q) ((contrEquiv1 dot_S8192x4_S4x4_S8192x4_1_1_0_0_n_n 4 rfl rfl).symm k) = ix2 q k := funext fun a => Fin.ext (by
    match a with
    | ⟨0, _⟩ => exact rhs44_0 _ _
    | ⟨1, _⟩ => exact (rhs44_1 _ _).trans hk)
  rw [el, er]

theorem lhs41_0 (i : S8192x1.Idx) (q : dot_S8192x4_S1x4_S8192x1_1_1_0_0_n_n.contr.Idx) :
    (dot_S8192x4_S1x4_S8192x1_1_1_0_0_n_n.lhsIdx i q 0).val = (i 0).val := by
  unfold DotDims.lhsIdx
  rw [dif_neg (show ¬(0 : Fin S8192x4.rank) ∈ dot_S8192x4_S1x4_S8192x1_1_1_0_0_n_n.lhsBatch by decide), dif_pos (show (0 : Fin S8192x4.rank) ∈ dot_S8192x4_S1x4_S8192x1_1_1_0_0_n_n.lhsNonContracting by decide)]
  rfl
theorem lhs41_1 (i : S8192x1.Idx) (q : dot_S8192x4_S1x4_S8192x1_1_1_0_0_n_n.contr.Idx) :
    (dot_S8192x4_S1x4_S8192x1_1_1_0_0_n_n.lhsIdx i q 1).val = (q ⟨0, by decide⟩).val :=
  dot_S8192x4_S1x4_S8192x1_1_1_0_0_n_n.lhsIdx_val_of_single rfl i q
theorem rhs41_0 (i : S8192x1.Idx) (q : dot_S8192x4_S1x4_S8192x1_1_1_0_0_n_n.contr.Idx) :
    (dot_S8192x4_S1x4_S8192x1_1_1_0_0_n_n.rhsIdx i q 0).val = (i 1).val := by
  unfold DotDims.rhsIdx
  rw [dif_neg (show ¬(0 : Fin S1x4.rank) ∈ dot_S8192x4_S1x4_S8192x1_1_1_0_0_n_n.rhsBatch by decide), dif_pos (show (0 : Fin S1x4.rank) ∈ dot_S8192x4_S1x4_S8192x1_1_1_0_0_n_n.rhsNonContracting by decide)]
  rfl
theorem rhs41_1 (i : S8192x1.Idx) (q : dot_S8192x4_S1x4_S8192x1_1_1_0_0_n_n.contr.Idx) :
    (dot_S8192x4_S1x4_S8192x1_1_1_0_0_n_n.rhsIdx i q 1).val = (q ⟨0, by decide⟩).val :=
  dot_S8192x4_S1x4_S8192x1_1_1_0_0_n_n.rhsIdx_val_of_single rfl i q

/-- The output layer's product: four features against the one row of the weights. -/
theorem mat41 (h : FVec Ideal S8192x4 .f32) (w : FVec Ideal S1x4 .f32) (p : Fin 8192) (u : Fin 1) :
    matmul dot_S8192x4_S1x4_S8192x1_1_1_0_0_n_n none h w (constant (F := Ideal) S8192x1 .f32 0x00000000#32) (ix2 p u)
      = ∑ k : Fin 4, h (ix2 p k) * w (ix2 u k) := by
  simp only [matmul]
  rw [Ideal.matmul_constant_zero_apply, ← Equiv.sum_comp (contrEquiv1 dot_S8192x4_S1x4_S8192x1_1_1_0_0_n_n 4 rfl rfl).symm]
  refine Finset.sum_congr rfl fun k _ => ?_
  have hk := contrEquiv1_symm_val dot_S8192x4_S1x4_S8192x1_1_1_0_0_n_n 4 rfl rfl k
  have el : dot_S8192x4_S1x4_S8192x1_1_1_0_0_n_n.lhsIdx (ix2 p u) ((contrEquiv1 dot_S8192x4_S1x4_S8192x1_1_1_0_0_n_n 4 rfl rfl).symm k) = ix2 p k := funext fun a => Fin.ext (by
    match a with
    | ⟨0, _⟩ => exact lhs41_0 _ _
    | ⟨1, _⟩ => exact (lhs41_1 _ _).trans hk)
  have er : dot_S8192x4_S1x4_S8192x1_1_1_0_0_n_n.rhsIdx (ix2 p u) ((contrEquiv1 dot_S8192x4_S1x4_S8192x1_1_1_0_0_n_n 4 rfl rfl).symm k) = ix2 u k := funext fun a => Fin.ext (by
    match a with
    | ⟨0, _⟩ => exact rhs41_0 _ _
    | ⟨1, _⟩ => exact (rhs41_1 _ _).trans hk)
  rw [el, er]

/-! ## Slice `n` of the stacked weights and biases -/

/-- Slice `n` of the stacked weights, loaded as a `[1, 4, 4]` piece and viewed `[4, 4]`, is the stack at leading
    coordinate `n`. -/
theorem wslice (x3 : Vec Ideal S10x4x4 .f32) (n : ℕ) (hn : n < 10)
    (inb : ∀ a, (![n, 0, 0] : Fin 3 → Nat) a + S1x4x4.size a ≤ S10x4x4.size a) (j k : Fin 4) :
    shapeCast S4x4 (View.ld x3 (Rect.unit (s := S10x4x4) ![n, 0, 0] S1x4x4.size inb)) shapeCasts_S1x4x4_S4x4 (ix2 j k)
      = x3 (ix3 (⟨n, hn⟩ : Fin 10) j k) := by
  refine (shapeCast_1ab_ab_apply _ shapeCasts_S1x4x4_S4x4 j k).trans ?_
  show x3 _ = x3 _
  refine congrArg x3 (funext fun a => Fin.ext ?_)
  match a with
  | ⟨0, _⟩ => show n + 1 * 0 = n; omega
  | ⟨1, _⟩ => show 0 + 1 * j.val = j.val; omega
  | ⟨2, _⟩ => show 0 + 1 * k.val = k.val; omega

/-- Slice `n` of the stacked biases, loaded as a `[1, 4]` piece and viewed `[4]`, is the stack at leading
    coordinate `n`. -/
theorem bslice (x4 : Vec Ideal S10x4 .f32) (n : ℕ) (hn : n < 10)
    (inb : ∀ a, (![n, 0] : Fin 2 → Nat) a + S1x4.size a ≤ S10x4.size a) (j : Fin 4) :
    shapeCast S4 (View.ld x4 (Rect.unit (s := S10x4) ![n, 0] S1x4.size inb)) shapeCasts_S1x4_S4 (ix1 j)
      = x4 (ix2 (⟨n, hn⟩ : Fin 10) j) := by
  refine (shapeCast_1a_a_apply _ shapeCasts_S1x4_S4 j).trans ?_
  show x4 _ = x4 _
  refine congrArg x4 (funext fun a => Fin.ext ?_)
  match a with
  | ⟨0, _⟩ => show n + 1 * 0 = n; omega
  | ⟨1, _⟩ => show 0 + 1 * j.val = j.val; omega

/-! ## The layers on a row -/

/-- THE INPUT LAYER on row `p`: where row `p` of the block of `x` is `g`, row `p` of the layer's result is the
    specification's input layer at `g`. -/
theorem first_row (x : FVec Ideal S8192x2 .f32) (w : FVec Ideal S4x2 .f32) (b : FVec Ideal S4 .f32)
    (p : Fin 8192) (g : Fin 2 → EReal) (hg : ∀ k, x (ix2 p k) = g k) (q : Fin 4) :
    maximumf (addf (matmul dot_S8192x2_S4x2_S8192x4_1_1_0_0_n_n none x w (constant (F := Ideal) S8192x4 .f32 0x00000000#32))
        (broadcastTo S8192x4 (shapeCast S1x4 b shapeCasts_S4_S1x4) broadcasts_S1x4_S8192x4))
      (broadcast S8192x4 (Scalar.ofBits (F := Ideal) .f32 0x00000000#32)) (ix2 p q)
      = first w b g q := by
  rw [maximumf_apply, addf_apply, broadcast_apply, mat22, broadcastTo_1b_ab_apply, shapeCast_a_1a_apply]
  show max _ (Ideal.ofBits .f32 0x00000000#32) = _
  rw [Ideal.ofBits_zero_f32]
  unfold first relu dense
  simp only [hg]

/-- A HIDDEN LAYER on row `p`, over any weights `w` and bias `b` of the layer's shapes. -/
theorem dense44_row (h : FVec Ideal S8192x4 .f32) (w : FVec Ideal S4x4 .f32) (b : FVec Ideal S4 .f32)
    (p : Fin 8192) (g : Fin 4 → EReal) (hg : ∀ k, h (ix2 p k) = g k) (q : Fin 4) :
    maximumf (addf (matmul dot_S8192x4_S4x4_S8192x4_1_1_0_0_n_n none h w (constant (F := Ideal) S8192x4 .f32 0x00000000#32))
        (broadcastTo S8192x4 (shapeCast S1x4 b shapeCasts_S4_S1x4) broadcasts_S1x4_S8192x4))
      (broadcast S8192x4 (Scalar.ofBits (F := Ideal) .f32 0x00000000#32)) (ix2 p q)
      = relu (dense (fun j k => w (ix2 j k)) (fun j => b (ix1 j)) g) q := by
  rw [maximumf_apply, addf_apply, broadcast_apply, mat44, broadcastTo_1b_ab_apply, shapeCast_a_1a_apply]
  show max _ (Ideal.ofBits .f32 0x00000000#32) = _
  rw [Ideal.ofBits_zero_f32]
  unfold relu dense
  simp only [hg]

/-- HIDDEN LAYER `n` on row `p`, its weights and bias read as slice `n` of the stacks: where row `p` of `h` is `g`,
    row `p` of the result is the specification's hidden layer `n` at `g`. -/
theorem hid_row (h : FVec Ideal S8192x4 .f32) (x3 : Vec Ideal S10x4x4 .f32) (x4 : Vec Ideal S10x4 .f32) (n : ℕ) (hn : n < 10)
    (inb3 : ∀ a, (![n, 0, 0] : Fin 3 → Nat) a + S1x4x4.size a ≤ S10x4x4.size a)
    (inb4 : ∀ a, (![n, 0] : Fin 2 → Nat) a + S1x4.size a ≤ S10x4.size a)
    (p : Fin 8192) (g : Fin 4 → EReal) (hg : ∀ k, h (ix2 p k) = g k) (q : Fin 4) :
    maximumf (addf (matmul dot_S8192x4_S4x4_S8192x4_1_1_0_0_n_n none h
          (shapeCast S4x4 (View.ld x3 (Rect.unit (s := S10x4x4) ![n, 0, 0] S1x4x4.size inb3)) shapeCasts_S1x4x4_S4x4 : FVec Ideal S4x4 .f32)
          (constant (F := Ideal) S8192x4 .f32 0x00000000#32))
        (broadcastTo S8192x4 (shapeCast S1x4
          (shapeCast S4 (View.ld x4 (Rect.unit (s := S10x4) ![n, 0] S1x4.size inb4)) shapeCasts_S1x4_S4 : FVec Ideal S4 .f32)
          shapeCasts_S4_S1x4) broadcasts_S1x4_S8192x4))
      (broadcast S8192x4 (Scalar.ofBits (F := Ideal) .f32 0x00000000#32)) (ix2 p q)
      = hid x3 x4 n hn g q := by
  refine (dense44_row h _ _ p g hg q).trans ?_
  unfold hid
  simp only [wslice x3 n hn inb3, bslice x4 n hn inb4]

/-- THE OUTPUT LAYER on row `p`: no maximum; the bias is one number repeated down the block. -/
theorem last_row (h : FVec Ideal S8192x4 .f32) (w : FVec Ideal S1x4 .f32) (b : FVec Ideal S1 .f32)
    (p : Fin 8192) (g : Fin 4 → EReal) (hg : ∀ k, h (ix2 p k) = g k) (u : Fin 1) :
    addf (matmul dot_S8192x4_S1x4_S8192x1_1_1_0_0_n_n none h w (constant (F := Ideal) S8192x1 .f32 0x00000000#32))
        (broadcastTo S8192x1 (shapeCast S1x1 b shapeCasts_S1_S1x1) broadcasts_S1x1_S8192x1) (ix2 p u)
      = last w b g u := by
  rw [addf_apply, mat41, broadcastTo_1b_ab_apply, shapeCast_a_1a_apply]
  unfold last dense
  simp only [hg]

end Cert.KernelLayers

end
-- ==== Proof.KernelRow.lean ====
/-
  The kernel body's result on one row of its block.

  The body computes its output block in four stretches: the input layer and hidden layers 0 and 1; hidden layers 2
  to 5; hidden layers 6 to 8; hidden layer 9 and the output layer. Each stretch is a chain of layers, so by the
  layer lemmas its row `p` is the specification's layers applied to the previous stretch's row `p`, starting from
  row `p` of the block of `x`. The block of weights and biases the body loads whole are the arrays themselves. So the
  stored block at `(p, u)` is the specification's network on row `p` of the block of `x`.
-/
import proofs.«174196_j25718264169060_1_alg».proof.Proof.Gen.KernelIdeal.Frame
import proofs.«174196_j25718264169060_1_alg».proof.Proof.KernelLayers

noncomputable section

namespace Cert.KernelRow

open Idealize.ShloMosaic Idealize.ShloMosaic.ValueIdx Cert.KernelIdeal Cert.KernelIdeal.Gen
open Cert.RowNet Cert.KernelLayers

theorem hz2 : (![0, 0] : Fin 2 → Nat) = fun _ => 0 := funext fun a => by fin_cases a <;> rfl
theorem hz1 : (![0] : Fin 1 → Nat) = fun _ => 0 := funext fun a => by fin_cases a <;> rfl

variable (x0 : Vec Ideal S8192x2 .f32) (x1 : Vec Ideal S4x2 .f32) (x2 : Vec Ideal S4 .f32)
  (x3 : Vec Ideal S10x4x4 .f32) (x4 : Vec Ideal S10x4 .f32) (x5 : Vec Ideal S1x4 .f32) (x6 : Vec Ideal S1 .f32)

/-- The activations after the input layer and hidden layers 0 and 1. -/
def act2 : FVec Ideal S8192x4 .f32 :=
  k0_pay2 (View.ld x0 r0_0) (View.ld x1 r0_1) (View.ld x2 r0_2) (View.ld x3 r0_3) (View.ld x4 r0_4) (View.ld x3 r0_5) (View.ld x4 r0_6)

/-- The activations after hidden layers 2 to 5. -/
def act5 : FVec Ideal S8192x4 .f32 :=
  k0_pay5 (act2 x0 x1 x2 x3 x4) (k0_pay3 (View.ld x3 r0_7)) (k0_pay4 (View.ld x4 r0_8)) (View.ld x3 r0_9) (View.ld x4 r0_10)
    (View.ld x3 r0_11) (View.ld x4 r0_12) (View.ld x3 r0_13) (View.ld x4 r0_14)

/-- The activations after hidden layers 6 to 8. -/
def act6 : FVec Ideal S8192x4 .f32 :=
  k0_pay6 (act5 x0 x1 x2 x3 x4) (View.ld x3 r0_15) (View.ld x4 r0_16) (View.ld x3 r0_17) (View.ld x4 r0_18) (View.ld x3 r0_19) (View.ld x4 r0_20)

theorem act2_row (p : Fin 8192) (k : Fin 4) :
    act2 x0 x1 x2 x3 x4 (ix2 p k)
      = hid x3 x4 1 (by decide) (hid x3 x4 0 (by decide) (first x1 x2 (fun k => x0 (ix2 p k)))) k := by
  unfold act2 k0_pay2
  simp only [View.ld_unit_zero (S := S8192x2) hz2, View.ld_unit_zero (S := S4x2) hz2, View.ld_unit_zero (S := S4) hz1]
  exact hid_row _ x3 x4 1 (by decide) _ _ p _ (fun k =>
    hid_row _ x3 x4 0 (by decide) _ _ p _ (fun k =>
      first_row x0 x1 x2 p (fun k => x0 (ix2 p k)) (fun _ => rfl) k) k) k

theorem act5_row (p : Fin 8192) (k : Fin 4) :
    act5 x0 x1 x2 x3 x4 (ix2 p k)
      = hid x3 x4 5 (by decide) (hid x3 x4 4 (by decide) (hid x3 x4 3 (by decide) (hid x3 x4 2 (by decide)
          (hid x3 x4 1 (by decide) (hid x3 x4 0 (by decide) (first x1 x2 (fun k => x0 (ix2 p k)))))))) k := by
  unfold act5 k0_pay5 k0_pay3 k0_pay4
  exact hid_row _ x3 x4 5 (by decide) _ _ p _ (fun k =>
    hid_row _ x3 x4 4 (by decide) _ _ p _ (fun k =>
      hid_row _ x3 x4 3 (by decide) _ _ p _ (fun k =>
        hid_row _ x3 x4 2 (by decide) _ _ p _ (fun k => act2_row x0 x1 x2 x3 x4 p k) k) k) k) k

theorem act6_row (p : Fin 8192) (k : Fin 4) :
    act6 x0 x1 x2 x3 x4 (ix2 p k)
      = hid x3 x4 8 (by decide) (hid x3 x4 7 (by decide) (hid x3 x4 6 (by decide)
          (hid x3 x4 5 (by decide) (hid x3 x4 4 (by decide) (hid x3 x4 3 (by decide) (hid x3 x4 2 (by decide)
          (hid x3 x4 1 (by decide) (hid x3 x4 0 (by decide) (first x1 x2 (fun k => x0 (ix2 p k))))))))))) k := by
  unfold act6 k0_pay6
  exact hid_row _ x3 x4 8 (by decide) _ _ p _ (fun k =>
    hid_row _ x3 x4 7 (by decide) _ _ p _ (fun k =>
      hid_row _ x3 x4 6 (by decide) _ _ p _ (fun k => act5_row x0 x1 x2 x3 x4 p k) k) k) k

/-- THE STORED BLOCK at `(p, u)`: the network on row `p` of the block of `x`. -/
theorem out_row (p : Fin 8192) (u : Fin 1) :
    out0_7 x0 x1 x2 x3 x4 x5 x6 (ix2 p u) = net x1 x2 x3 x4 x5 x6 (fun k => x0 (ix2 p k)) u := by
  have e : out0_7 x0 x1 x2 x3 x4 x5 x6
      = k0_pay1 (act6 x0 x1 x2 x3 x4) (k0_pay7 (View.ld x3 r0_21)) (k0_pay8 (View.ld x4 r0_22))
          (constant (F := Ideal) S8192x4 .f32 0x00000000#32) (View.ld x5 r0_23) (View.ld x6 r0_24) := by
    unfold out0_7
    rw [View.canon_unit_zero hz2]
    rfl
  rw [e]
  unfold k0_pay1 k0_pay7 k0_pay8
  simp only [View.ld_unit_zero (S := S1x4) hz2, View.ld_unit_zero (S := S1) hz1]
  exact last_row _ x5 x6 p _ (fun k =>
    hid_row _ x3 x4 9 (by decide) _ _ p _ (fun k => act6_row x0 x1 x2 x3 x4 p k) k) u

end Cert.KernelRow

end
-- ==== Proof.KernelArray.lean ====
/-
  From the blocks to the whole result array.

  The grid has one axis of 1024 points. At point `t` the window on `x` holds rows `8192 t … 8192 t + 8191`, the
  windows on the weights and biases hold those arrays whole (their block index is zero at every point), and the
  output window's block is rows `8192 t … 8192 t + 8191` of the result. The body's stored block at `(p, u)` is the
  network on row `p` of the `x` block, that is on row `8192 t + p` of `x`: what point `t` writes back is block `t` of the
  specification's array `G`. Row `r` of the result lies in the block of point `r / 8192`, so the blocks cover the
  array and it ends holding `G`.
-/
import proofs.«174196_j25718264169060_1_alg».proof.Proof.Gen.KernelIdeal.Value
import proofs.«174196_j25718264169060_1_alg».proof.Proof.KernelRow

noncomputable section

namespace Cert.KernelArray

open Idealize.ShloMosaic Idealize.ShloMosaic.TcCoe Idealize.ShloMosaic.ValueIdx Idealize.SL.Sem
open Cert.KernelIdeal Cert.KernelIdeal.Gen Cert.KernelIdeal.Value
open Cert.RowNet Cert.KernelRow
open Idealize.ShloMosaic.Pipeline (Dat)

variable (m : (ℓ : Loc nD τ sig) → Buf (Elt Ideal) ℓ) (ρ : Dev nD → PrngReg)

/-- The printed index maps, decided over the 1024 points: the windows on `x` and on the result move one block per
    point along the rows; every other window stays on block zero. -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 1) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0 :=
  (by decide +kernel : ∀ t : Fin grid0.N, _)

/-! ## The input windows' blocks -/

/-- Row `p` of the `x` block at point `t` is row `8192 t + p` of `x`. -/
theorem xblk_apply (c : Dev nD) (t : Fin cfg0.N) (p : Fin 8192) (k : Fin 2) (r : Fin 8388608) (hr : r.val = t.val * 8192 + p.val) :
    (iblk m c 0 t : Vec Ideal S8192x2 .f32) (ix2 p k) = (V m c main_arg0 : S8388608x2.Idx → EReal) (ix2 r k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 8192 + 1 * p.val = r.val; rw [e0, hr]; omega
  | ⟨1, _⟩ => show win0_0.index t (1 : Fin 2) * 2 + 1 * k.val = k.val; rw [e1]; omega

/-- The input-layer weights' block is the array. -/
theorem blk1 (c : Dev nD) (t : Fin cfg0.N) : (iblk m c 1 t : Vec Ideal S4x2 .f32) = V m c main_arg1 := by
  obtain ⟨-, -, -, -, e0, e1, -⟩ := idx_facts t
  funext y
  unfold iblk
  rw [View.read_apply]
  show V m c main_arg1 _ = V m c main_arg1 _
  congr 1
  funext a
  apply Fin.ext
  match a with
  | ⟨0, _⟩ => show win0_1.index t (0 : Fin 2) * 4 + 1 * (y 0).val = (y 0).val; rw [e0]; omega
  | ⟨1, _⟩ => show win0_1.index t (1 : Fin 2) * 2 + 1 * (y 1).val = (y 1).val; rw [e1]; omega

/-- The input-layer bias's block is the array. -/
theorem blk2 (c : Dev nD) (t : Fin cfg0.N) : (iblk m c 2 t : Vec Ideal S4 .f32) = V m c main_arg2 := by
  obtain ⟨-, -, -, -, -, -, e0, -⟩ := idx_facts t
  funext y
  unfold iblk
  rw [View.read_apply]
  show V m c main_arg2 _ = V m c main_arg2 _
  congr 1
  funext a
  apply Fin.ext
  match a with
  | ⟨0, _⟩ => show win0_2.index t (0 : Fin 1) * 4 + 1 * (y 0).val = (y 0).val; rw [e0]; omega

/-- The stacked hidden weights' block is the array. -/
theorem blk3 (c : Dev nD) (t : Fin cfg0.N) : (iblk m c 3 t : Vec Ideal S10x4x4 .f32) = V m c main_arg3 := by
  obtain ⟨-, -, -, -, -, -, -, e0, e1, e2, -⟩ := idx_facts t
  funext y
  unfold iblk
  rw [View.read_apply]
  show V m c main_arg3 _ = V m c main_arg3 _
  congr 1
  funext a
  apply Fin.ext
  match a with
  | ⟨0, _⟩ => show win0_3.index t (0 : Fin 3) * 10 + 1 * (y 0).val = (y 0).val; rw [e0]; omega
  | ⟨1, _⟩ => show win0_3.index t (1 : Fin 3) * 4 + 1 * (y 1).val = (y 1).val; rw [e1]; omega
  | ⟨2, _⟩ => show win0_3.index t (2 : Fin 3) * 4 + 1 * (y 2).val = (y 2).val; rw [e2]; omega

/-- The stacked hidden biases' block is the array. -/
theorem blk4 (c : Dev nD) (t : Fin cfg0.N) : (iblk m c 4 t : Vec Ideal S10x4 .f32) = V m c main_arg4 := by
  obtain ⟨-, -, -, -, -, -, -, -, -, -, e0, e1, -⟩ := idx_facts t
  funext y
  unfold iblk
  rw [View.read_apply]
  show V m c main_arg4 _ = V m c main_arg4 _
  congr 1
  funext a
  apply Fin.ext
  match a with
  | ⟨0, _⟩ => show win0_4.index t (0 : Fin 2) * 10 + 1 * (y 0).val = (y 0).val; rw [e0]; omega
  | ⟨1, _⟩ => show win0_4.index t (1 : Fin 2) * 4 + 1 * (y 1).val = (y 1).val; rw [e1]; omega

/-- The output-layer weights' block is the array. -/
theorem blk5 (c : Dev nD) (t : Fin cfg0.N) : (iblk m c 5 t : Vec Ideal S1x4 .f32) = V m c main_arg5 := by
  obtain ⟨-, -, -, -, -, -, -, -, -, -, -, -, e0, e1, -⟩ := idx_facts t
  funext y
  unfold iblk
  rw [View.read_apply]
  show V m c main_arg5 _ = V m c main_arg5 _
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 4 + 1 * (y 1).val = (y 1).val; rw [e1]; omega

/-- The output-layer bias's block is the array. -/
theorem blk6 (c : Dev nD) (t : Fin cfg0.N) : (iblk m c 6 t : Vec Ideal S1 .f32) = V m c main_arg6 := by
  obtain ⟨-, -, -, -, -, -, -, -, -, -, -, -, -, -, e0⟩ := idx_facts t
  funext y
  unfold iblk
  rw [View.read_apply]
  show V m c main_arg6 _ = V m c main_arg6 _
  congr 1
  funext a
  apply Fin.ext
  match a with
  | ⟨0, _⟩ => show win0_6.index t (0 : Fin 1) * 1 + 1 * (y 0).val = (y 0).val; rw [e0]; omega

/-! ## What a point writes back -/

/-- The stored block over any `x` block whose row `p` is row `r` of an array `X`: the specification's array on `X`
    at `(r, u)`. -/
theorem out_of_row (X : S8388608x2.Idx → EReal) (x0 : Vec Ideal S8192x2 .f32) (x1 : Vec Ideal S4x2 .f32) (x2 : Vec Ideal S4 .f32)
    (x3 : Vec Ideal S10x4x4 .f32) (x4 : Vec Ideal S10x4 .f32) (x5 : Vec Ideal S1x4 .f32) (x6 : Vec Ideal S1 .f32)
    (p : Fin 8192) (u : Fin 1) (r : Fin 8388608) (hx : ∀ k, x0 (ix2 p k) = X (ix2 r k)) :
    out0_7 x0 x1 x2 x3 x4 x5 x6 (ix2 p u) = G X x1 x2 x3 x4 x5 x6 (ix2 r u) := by
  rw [out_row, G_ix2]
  exact congrArg (fun g => net x1 x2 x3 x4 x5 x6 g u) (funext hx)

/-- WHAT POINT `t` WRITES BACK is block `t` of `G` of the argument arrays. -/
theorem flushed_eq (c : Dev nD) (t : Fin cfg0.N) :
    (dats m 0 c).flushed 7 t = ((cfg0.win 7).blk t).view.read (Elt Ideal)
      (G (V m c main_arg0) (V m c main_arg1) (V m c main_arg2) (V m c main_arg3) (V m c main_arg4) (V m c main_arg5) (V m c main_arg6)) := by
  obtain ⟨-, -, e0, e1, -⟩ := idx_facts t
  rw [flushed7]
  refine funext fun (j : S8192x1.Idx) => ?_
  obtain ⟨p, u, rfl⟩ : ∃ (p : Fin 8192) (u : Fin 1), j = ix2 p u := ⟨j 0, j 1, eq_ix2 j⟩
  have hN : cfg0.N = 1024 := N_0
  have hr : t.val * 8192 + p.val < 8388608 := by have := t.isLt; have := p.isLt; omega
  show out0_7 (iblk m c 0 t) (iblk m c 1 t) (iblk m c 2 t) (iblk m c 3 t) (iblk m c 4 t) (iblk m c 5 t) (iblk m c 6 t) (ix2 p u)
    = G (V m c main_arg0) (V m c main_arg1) (V m c main_arg2) (V m c main_arg3) (V m c main_arg4) (V m c main_arg5) (V m c main_arg6)
        (((cfg0.win 7).blk t).view.emb (ix2 p u))
  refine (out_of_row (V m c main_arg0) (iblk m c 0 t) (iblk m c 1 t) (iblk m c 2 t) (iblk m c 3 t) (iblk m c 4 t) (iblk m c 5 t) (iblk m c 6 t)
    p u ⟨t.val * 8192 + p.val, hr⟩ (fun k => xblk_apply m c t p k ⟨t.val * 8192 + p.val, hr⟩ rfl)).trans ?_
  rw [blk1 m c t, blk2 m c t, blk3 m c t, blk4 m c t, blk5 m c t, blk6 m c t]
  refine congrArg _ (funext fun a => Fin.ext ?_)
  match a with
  | ⟨0, _⟩ => show t.val * 8192 + p.val = win0_7.index t (0 : Fin 2) * 8192 + 1 * p.val; rw [e0]; omega
  | ⟨1, _⟩ => show u.val = win0_7.index t (1 : Fin 2) * 1 + 1 * u.val; rw [e1]; omega

/-! ## The cover and the final array -/

/-- An index of the result is in point `t`'s block iff each coordinate is in the block's range on its axis. -/
theorem mem_blk (t : Fin cfg0.N) (i : S8388608x1.Idx) :
    i ∈ ((cfg0.win 7).blk t).view.set ↔ ∀ a : Fin 2, win0_7.index t a * S8192x1.size a ≤ (i a).val ∧ (i a).val < win0_7.index t a * S8192x1.size a + S8192x1.size a := by
  show i ∈ ((View.whole main_v0).slice (win0_7.rect t)).set ↔ _
  rw [View.set_slice_whole, Rect.mem_set_unit]
  exact Iff.rfl

/-- Every index of the result lies in the block of the point its row falls in. -/
theorem cover (i : S8388608x1.Idx) : ∃ t : Fin cfg0.N, (cfg0.win 7).flush t = true ∧ i ∈ ((cfg0.win 7).blk t).view.set := by
  have hi0 : (i 0).val < 8388608 := (i 0).isLt
  have hi1 : (i 1).val < 1 := (i 1).isLt
  have hN : cfg0.N = 1024 := N_0
  refine ⟨⟨(i 0).val / 8192, by rw [hN]; omega⟩, flush0_7 _, ?_⟩
  obtain ⟨-, -, e0, e1, -⟩ := idx_facts ⟨(i 0).val / 8192, by rw [hN]; omega⟩
  rw [mem_blk]
  intro a
  match a with
  | ⟨0, _⟩ =>
    show win0_7.index _ (0 : Fin 2) * 8192 ≤ (i 0).val ∧ (i 0).val < win0_7.index _ (0 : Fin 2) * 8192 + 8192
    rw [e0]; show (i 0).val / 8192 * 8192 ≤ (i 0).val ∧ (i 0).val < (i 0).val / 8192 * 8192 + 8192; omega
  | ⟨1, _⟩ =>
    show win0_7.index _ (1 : Fin 2) * 1 ≤ (i 1).val ∧ (i 1).val < win0_7.index _ (1 : Fin 2) * 1 + 1
    rw [e1]; omega

/-- THE RESULT ARRAY after the run is `G` of the argument arrays. -/
theorem final (c : Dev nD) : (dats m 0 c).arrAt 7 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) :=
  (dats m 0 c).arrAt_eq_of_cover 7 _ (fun t _ => flushed_eq m c t) cover

/-- The run, read: the result array at `G` of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelArray

end
-- ==== Proof.RefLayers.lean ====
/-
  The reference, one layer at a time, read on ONE ROW of the batch.

  A layer of the reference transposes its weight matrix (rows = output features) so that the features run along the
  second axis, multiplies the activations by it (the activations' second axis against the transposed weights' first),
  adds the bias repeated down the batch, and, except in the last layer, takes the maximum with a zero repeated over
  the whole array. Read at row `r`, feature `q`: `max ((∑ k, h (r, k) * w (q, k)) + b q) 0` — the transposed matrix at
  `(k, q)` is the matrix at `(q, k)` — which depends on row `r` of `h` only. So where row `r` of `h` is a vector `g`,
  row `r` of a layer's result is the specification's layer at `g`, and the reference's eleven rectified stages and its
  result are, on row `r`, the specification's network on row `r` of the input (`result_row`).
-/
import proofs.«174196_j25718264169060_1_alg».proof.Proof.Gen.ReferenceIdeal.Read
import proofs.«174196_j25718264169060_1_alg».proof.Proof.RowNet
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.RefLayers

open Idealize.ShloMosaic Idealize.ShloMosaic.ValueIdx Cert.ReferenceIdeal Cert.ReferenceIdeal.Gen Cert.ReferenceIdeal.Read
open Cert.RowNet

/-! ## The three products read at an index

Each contracts axis 1 of the left operand with axis 0 of the right: at output `(r, q)` and contraction coordinate
`k` the operands are read at `(r, k)` and `(k, q)`. -/

/-- The input layer's product. -/
theorem dot24 (x : FVec Ideal S8388608x2 .f32) (w : FVec Ideal S2x4 .f32) (r : Fin 8388608) (q : Fin 4) :
    Host.dotGeneral dot_S8388608x2_S2x4_S8388608x4_1_0_0_1_n_n none x w (ix2 r q) = ∑ k : Fin 2, x (ix2 r k) * w (ix2 k q) := by
  simp only [Host.dotGeneral]
  rw [Ideal.dotGeneral_apply, ← Equiv.sum_comp (contrEquiv1 dot_S8388608x2_S2x4_S8388608x4_1_0_0_1_n_n 2 rfl rfl).symm]
  refine Finset.sum_congr rfl fun k _ => ?_
  have hk := contrEquiv1_symm_val dot_S8388608x2_S2x4_S8388608x4_1_0_0_1_n_n 2 rfl rfl k
  have el : dot_S8388608x2_S2x4_S8388608x4_1_0_0_1_n_n.lhsIdx (ix2 r q) ((contrEquiv1 dot_S8388608x2_S2x4_S8388608x4_1_0_0_1_n_n 2 rfl rfl).symm k) = ix2 r k := funext fun a => Fin.ext (by
    match a with
    | ⟨0, _⟩ => exact lhs_main_v1_0 _ _
    | ⟨1, _⟩ => exact (lhs_main_v1_1 _ _).trans hk)
  have er : dot_S8388608x2_S2x4_S8388608x4_1_0_0_1_n_n.rhsIdx (ix2 r q) ((contrEquiv1 dot_S8388608x2_S2x4_S8388608x4_1_0_0_1_n_n 2 rfl rfl).symm k) = ix2 k q := funext fun a => Fin.ext (by
    match a with
    | ⟨0, _⟩ => exact (rhs_main_v1_0 _ _).trans hk
    | ⟨1, _⟩ => exact rhs_main_v1_1 _ _)
  rw [el, er]

/-- A hidden layer's product. -/
theorem dot44 (h : FVec Ideal S8388608x4 .f32) (w : FVec Ideal S4x4 .f32) (r : Fin 8388608) (q : Fin 4) :
    Host.dotGeneral dot_S8388608x4_S4x4_S8388608x4_1_0_0_1_n_n none h w (ix2 r q) = ∑ k : Fin 4, h (ix2 r k) * w (ix2 k q) := by
  simp only [Host.dotGeneral]
  rw [Ideal.dotGeneral_apply, ← Equiv.sum_comp (contrEquiv1 dot_S8388608x4_S4x4_S8388608x4_1_0_0_1_n_n 4 rfl rfl).symm]
  refine Finset.sum_congr rfl fun k _ => ?_
  have hk := contrEquiv1_symm_val dot_S8388608x4_S4x4_S8388608x4_1_0_0_1_n_n 4 rfl rfl k
  have el : dot_S8388608x4_S4x4_S8388608x4_1_0_0_1_n_n.lhsIdx (ix2 r q) ((contrEquiv1 dot_S8388608x4_S4x4_S8388608x4_1_0_0_1_n_n 4 rfl rfl).symm k) = ix2 r k := funext fun a => Fin.ext (by
    match a with
    | ⟨0, _⟩ => exact lhs_main_v9_0 _ _
    | ⟨1, _⟩ => exact (lhs_main_v9_1 _ _).trans hk)
  have er : dot_S8388608x4_S4x4_S8388608x4_1_0_0_1_n_n.rhsIdx (ix2 r q) ((contrEquiv1 dot_S8388608x4_S4x4_S8388608x4_1_0_0_1_n_n 4 rfl rfl).symm k) = ix2 k q := funext fun a => Fin.ext (by
    match a with
    | ⟨0, _⟩ => exact (rhs_main_v9_0 _ _).trans hk
    | ⟨1, _⟩ => exact rhs_main_v9_1 _ _)
  rw [el, er]

/-- The output layer's product. -/
theorem dot41 (h : FVec Ideal S8388608x4 .f32) (w : FVec Ideal S4x1 .f32) (r : Fin 8388608) (u : Fin 1) :
    Host.dotGeneral dot_S8388608x4_S4x1_S8388608x1_1_0_0_1_n_n none h w (ix2 r u) = ∑ k : Fin 4, h (ix2 r k) * w (ix2 k u) := by
  simp only [Host.dotGeneral]
  rw [Ideal.dotGeneral_apply, ← Equiv.sum_comp (contrEquiv1 dot_S8388608x4_S4x1_S8388608x1_1_0_0_1_n_n 4 rfl rfl).symm]
  refine Finset.sum_congr rfl fun k _ => ?_
  have hk := contrEquiv1_symm_val dot_S8388608x4_S4x1_S8388608x1_1_0_0_1_n_n 4 rfl rfl k
  have el : dot_S8388608x4_S4x1_S8388608x1_1_0_0_1_n_n.lhsIdx (ix2 r u) ((contrEquiv1 dot_S8388608x4_S4x1_S8388608x1_1_0_0_1_n_n 4 rfl rfl).symm k) = ix2 r k := funext fun a => Fin.ext (by
    match a with
    | ⟨0, _⟩ => exact lhs_main_v107_0 _ _
    | ⟨1, _⟩ => exact (lhs_main_v107_1 _ _).trans hk)
  have er : dot_S8388608x4_S4x1_S8388608x1_1_0_0_1_n_n.rhsIdx (ix2 r u) ((contrEquiv1 dot_S8388608x4_S4x1_S8388608x1_1_0_0_1_n_n 4 rfl rfl).symm k) = ix2 k u := funext fun a => Fin.ext (by
    match a with
    | ⟨0, _⟩ => exact (rhs_main_v107_0 _ _).trans hk
    | ⟨1, _⟩ => exact rhs_main_v107_1 _ _)
  rw [el, er]

/-! ## The bias, the zero, and slice `n` of the stacks -/

/-- A bias vector laid out as a row and repeated down the batch reads, at `(r, q)`, its entry `q`. -/
theorem bias4 (b : FVec Ideal S4 .f32) (r : Fin 8388608) (q : Fin 4) :
    broadcastInDim S8388608x4 ![0, 1] bcast_S1x4_S8388608x4_0_1 (broadcastInDim S1x4 ![1] bcast_S4_S1x4_1 b) (ix2 r q) = b (ix1 q) := by
  refine (broadcastInDim_apply _ bcast_S1x4_S8388608x4_0_1 _ (ix2 r q) (ix2 (0 : Fin 1) q) (fun a => match a with
    | ⟨0, _⟩ => by show 0 = if (1 : Nat) = 1 then 0 else r.val; rw [if_pos rfl]
    | ⟨1, _⟩ => by show q.val = if (4 : Nat) = 1 then 0 else q.val; rw [if_neg (by decide)])).trans ?_
  exact broadcastInDim_apply _ bcast_S4_S1x4_1 b (ix2 (0 : Fin 1) q) (ix1 q) (fun a => match a with
    | ⟨0, _⟩ => by show q.val = if (4 : Nat) = 1 then 0 else q.val; rw [if_neg (by decide)])

/-- The output layer's one bias repeated down the batch reads that number everywhere. -/
theorem bias1 (b : FVec Ideal S1 .f32) (r : Fin 8388608) (u : Fin 1) :
    broadcastInDim S8388608x1 ![0, 1] bcast_S1x1_S8388608x1_0_1 (broadcastInDim S1x1 ![1] bcast_S1_S1x1_1 b) (ix2 r u) = b (ix1 u) := by
  have hu : u = (0 : Fin 1) := Subsingleton.elim _ _
  subst hu
  refine (broadcastInDim_apply _ bcast_S1x1_S8388608x1_0_1 _ (ix2 r (0 : Fin 1)) (ix2 (0 : Fin 1) (0 : Fin 1)) (fun a => match a with
    | ⟨0, _⟩ => by show 0 = if (1 : Nat) = 1 then 0 else r.val; rw [if_pos rfl]
    | ⟨1, _⟩ => by show 0 = if (1 : Nat) = 1 then 0 else 0; rw [if_pos rfl])).trans ?_
  exact broadcastInDim_apply _ bcast_S1_S1x1_1 b (ix2 (0 : Fin 1) (0 : Fin 1)) (ix1 (0 : Fin 1)) (fun a => match a with
    | ⟨0, _⟩ => by show 0 = if (1 : Nat) = 1 then 0 else 0; rw [if_pos rfl])

/-- The rectifier's zero, a scalar constant repeated over the whole array, reads the extended real `0`. -/
theorem zero4 (r : Fin 8388608) (q : Fin 4) :
    broadcastInDim S8388608x4 ![] bcast_S_S8388608x4 (constant (F := Ideal) S_ .f32 0x00000000#32) (ix2 r q) = (0 : EReal) := by
  refine (broadcastInDim_apply _ bcast_S_S8388608x4 _ (ix2 r q) ix0 (fun a => a.elim0)).trans ?_
  show Ideal.ofBits .f32 0x00000000#32 = 0
  exact Ideal.ofBits_zero_f32

/-- Slice `n` of the stacked weights, its unit axis dropped, transposed: at `(k, q)` the stack at `(n, q, k)`. -/
theorem wslice (x3 : FVec Ideal S10x4x4 .f32) (n : ℕ) (hn : n < 10) (hs : S10x4x4.Slices ![n, 0, 0] S1x4x4) (k q : Fin 4) :
    transpose S4x4 [1, 0] (shapeCast S4x4 (extractStridedSlice S1x4x4 ![n, 0, 0] x3 hs) shapeCasts_S1x4x4_S4x4) transposes_S4x4_S4x4_1_0 (ix2 k q)
      = x3 (ix3 (⟨n, hn⟩ : Fin 10) q k) := by
  refine (transpose_ix2_apply _ transposes_S4x4_S4x4_1_0 k q).trans ?_
  refine (shapeCast_1ab_ab_apply _ shapeCasts_S1x4x4_S4x4 q k).trans ?_
  exact extractStridedSlice_apply ![n, 0, 0] x3 hs (ix3 (0 : Fin 1) q k) (ix3 (⟨n, hn⟩ : Fin 10) q k) (fun a => match a with
    | ⟨0, _⟩ => by show n = n + 0; omega
    | ⟨1, _⟩ => by show q.val = 0 + q.val; omega
    | ⟨2, _⟩ => by show k.val = 0 + k.val; omega)

/-- Slice `n` of the stacked biases, its unit axis dropped: at `q` the stack at `(n, q)`. -/
theorem bslice (x4 : FVec Ideal S10x4 .f32) (n : ℕ) (hn : n < 10) (hs : S10x4.Slices ![n, 0] S1x4) (q : Fin 4) :
    shapeCast S4 (extractStridedSlice S1x4 ![n, 0] x4 hs) shapeCasts_S1x4_S4 (ix1 q) = x4 (ix2 (⟨n, hn⟩ : Fin 10) q) := by
  refine (shapeCast_1a_a_apply _ shapeCasts_S1x4_S4 q).trans ?_
  exact extractStridedSlice_apply ![n, 0] x4 hs (ix2 (0 : Fin 1) q) (ix2 (⟨n, hn⟩ : Fin 10) q) (fun a => match a with
    | ⟨0, _⟩ => by show n = n + 0; omega
    | ⟨1, _⟩ => by show q.val = 0 + q.val; omega)

/-! ## The layers on a row -/

/-- THE INPUT LAYER on row `r`. -/
theorem first_row (x : FVec Ideal S8388608x2 .f32) (w : FVec Ideal S4x2 .f32) (b : FVec Ideal S4 .f32)
    (r : Fin 8388608) (g : Fin 2 → EReal) (hg : ∀ k, x (ix2 r k) = g k) (q : Fin 4) :
    maximumf (addf (Host.dotGeneral dot_S8388608x2_S2x4_S8388608x4_1_0_0_1_n_n none x
          (transpose S2x4 [1, 0] w transposes_S4x2_S2x4_1_0 : FVec Ideal S2x4 .f32))
        (broadcastInDim S8388608x4 ![0, 1] bcast_S1x4_S8388608x4_0_1 (broadcastInDim S1x4 ![1] bcast_S4_S1x4_1 b)))
      (broadcastInDim S8388608x4 ![] bcast_S_S8388608x4 (constant (F := Ideal) S_ .f32 0x00000000#32)) (ix2 r q)
      = first w b g q := by
  rw [maximumf_apply, addf_apply, dot24, bias4, zero4]
  unfold first relu dense
  simp only [hg, transpose_ix2_apply w transposes_S4x2_S2x4_1_0]

/-- HIDDEN LAYER `n` on row `r`. -/
theorem hid_row (h : FVec Ideal S8388608x4 .f32) (x3 : FVec Ideal S10x4x4 .f32) (x4 : FVec Ideal S10x4 .f32) (n : ℕ) (hn : n < 10)
    (hs3 : S10x4x4.Slices ![n, 0, 0] S1x4x4) (hs4 : S10x4.Slices ![n, 0] S1x4)
    (r : Fin 8388608) (g : Fin 4 → EReal) (hg : ∀ k, h (ix2 r k) = g k) (q : Fin 4) :
    maximumf (addf (Host.dotGeneral dot_S8388608x4_S4x4_S8388608x4_1_0_0_1_n_n none h
          (transpose S4x4 [1, 0] (shapeCast S4x4 (extractStridedSlice S1x4x4 ![n, 0, 0] x3 hs3) shapeCasts_S1x4x4_S4x4) transposes_S4x4_S4x4_1_0 : FVec Ideal S4x4 .f32))
        (broadcastInDim S8388608x4 ![0, 1] bcast_S1x4_S8388608x4_0_1 (broadcastInDim S1x4 ![1] bcast_S4_S1x4_1
          (shapeCast S4 (extractStridedSlice S1x4 ![n, 0] x4 hs4) shapeCasts_S1x4_S4 : FVec Ideal S4 .f32))))
      (broadcastInDim S8388608x4 ![] bcast_S_S8388608x4 (constant (F := Ideal) S_ .f32 0x00000000#32)) (ix2 r q)
      = hid x3 x4 n hn g q := by
  rw [maximumf_apply, addf_apply, dot44, bias4, zero4]
  unfold hid relu dense
  simp only [hg, wslice x3 n hn hs3, bslice x4 n hn hs4]

/-- THE OUTPUT LAYER on row `r`. -/
theorem last_row (h : FVec Ideal S8388608x4 .f32) (w : FVec Ideal S1x4 .f32) (b : FVec Ideal S1 .f32)
    (r : Fin 8388608) (g : Fin 4 → EReal) (hg : ∀ k, h (ix2 r k) = g k) (u : Fin 1) :
    addf (Host.dotGeneral dot_S8388608x4_S4x1_S8388608x1_1_0_0_1_n_n none h
          (transpose S4x1 [1, 0] w transposes_S1x4_S4x1_1_0 : FVec Ideal S4x1 .f32))
        (broadcastInDim S8388608x1 ![0, 1] bcast_S1x1_S8388608x1_0_1 (broadcastInDim S1x1 ![1] bcast_S1_S1x1_1 b)) (ix2 r u)
      = last w b g u := by
  rw [addf_apply, dot41, bias1]
  unfold last dense
  simp only [hg, transpose_ix2_apply w transposes_S1x4_S4x1_1_0]

end Cert.RefLayers

end
-- ==== Proof.RefRow.lean ====
/-
  The reference's result on one row of the batch, and hence as a whole array.

  The reference's eleven rectified stages are whole-batch arrays; by the layer lemmas each stage's row `r` is the
  specification's layer applied to the previous stage's row `r`, starting from row `r` of the input. Following the
  stages in order gives the result at `(r, u)` as the specification's network on row `r`, which is the specification's
  array `G` index by index.
-/
import proofs.«174196_j25718264169060_1_alg».proof.Proof.RefLayers

noncomputable section

namespace Cert.RefRow

open Idealize.ShloMosaic Idealize.ShloMosaic.ValueIdx Cert.ReferenceIdeal Cert.ReferenceIdeal.Gen Cert.ReferenceIdeal.Read
open Cert.RowNet Cert.RefLayers

variable (x0 : FVec Ideal S8388608x2 .f32) (x1 : FVec Ideal S4x2 .f32) (x2 : FVec Ideal S4 .f32)
  (x3 : FVec Ideal S10x4x4 .f32) (x4 : FVec Ideal S10x4 .f32) (x5 : FVec Ideal S1x4 .f32) (x6 : FVec Ideal S1 .f32)

/-- The result at `(r, u)` is the network on row `r` of the input. -/
theorem result_row (r : Fin 8388608) (u : Fin 1) :
    val_main_v110 (F := Ideal) x0 x1 x2 x3 x4 x5 x6 (ix2 r u) = net x1 x2 x3 x4 x5 x6 (rowOf x0 r) u := by
  have e0 : ∀ k, val_main_v5 (F := Ideal) x0 x1 x2 (ix2 r k) = first x1 x2 (rowOf x0 r) k :=
    fun k => first_row x0 x1 x2 r (rowOf x0 r) (fun _ => rfl) k
  have e1 : ∀ k, val_main_v15 (F := Ideal) x0 x1 x2 x3 x4 (ix2 r k) = hid x3 x4 0 (by decide) (first x1 x2 (rowOf x0 r)) k :=
    fun k => hid_row (val_main_v5 (F := Ideal) x0 x1 x2) x3 x4 0 (by decide) slices_S10x4x4_S1x4x4_0_0_0 slices_S10x4_S1x4_0_0 r _ e0 k
  have e2 : ∀ k, val_main_v25 (F := Ideal) x0 x1 x2 x3 x4 (ix2 r k) = hid x3 x4 1 (by decide) (hid x3 x4 0 (by decide) (first x1 x2 (rowOf x0 r))) k :=
    fun k => hid_row (val_main_v15 (F := Ideal) x0 x1 x2 x3 x4) x3 x4 1 (by decide) slices_S10x4x4_S1x4x4_1_0_0 slices_S10x4_S1x4_1_0 r _ e1 k
  have e3 : ∀ k, val_main_v35 (F := Ideal) x0 x1 x2 x3 x4 (ix2 r k) = hid x3 x4 2 (by decide) (hid x3 x4 1 (by decide) (hid x3 x4 0 (by decide) (first x1 x2 (rowOf x0 r)))) k :=
    fun k => hid_row (val_main_v25 (F := Ideal) x0 x1 x2 x3 x4) x3 x4 2 (by decide) slices_S10x4x4_S1x4x4_2_0_0 slices_S10x4_S1x4_2_0 r _ e2 k
  have e4 : ∀ k, val_main_v45 (F := Ideal) x0 x1 x2 x3 x4 (ix2 r k) = hid x3 x4 3 (by decide) (hid x3 x4 2 (by decide) (hid x3 x4 1 (by decide) (hid x3 x4 0 (by decide) (first x1 x2 (rowOf x0 r))))) k :=
    fun k => hid_row (val_main_v35 (F := Ideal) x0 x1 x2 x3 x4) x3 x4 3 (by decide) slices_S10x4x4_S1x4x4_3_0_0 slices_S10x4_S1x4_3_0 r _ e3 k
  have e5 : ∀ k, val_main_v55 (F := Ideal) x0 x1 x2 x3 x4 (ix2 r k) = hid x3 x4 4 (by decide) (hid x3 x4 3 (by decide) (hid x3 x4 2 (by decide) (hid x3 x4 1 (by decide) (hid x3 x4 0 (by decide) (first x1 x2 (rowOf x0 r)))))) k :=
    fun k => hid_row (val_main_v45 (F := Ideal) x0 x1 x2 x3 x4) x3 x4 4 (by decide) slices_S10x4x4_S1x4x4_4_0_0 slices_S10x4_S1x4_4_0 r _ e4 k
  have e6 : ∀ k, val_main_v65 (F := Ideal) x0 x1 x2 x3 x4 (ix2 r k) = hid x3 x4 5 (by decide) (hid x3 x4 4 (by decide) (hid x3 x4 3 (by decide) (hid x3 x4 2 (by decide) (hid x3 x4 1 (by decide) (hid x3 x4 0 (by decide) (first x1 x2 (rowOf x0 r))))))) k :=
    fun k => hid_row (val_main_v55 (F := Ideal) x0 x1 x2 x3 x4) x3 x4 5 (by decide) slices_S10x4x4_S1x4x4_5_0_0 slices_S10x4_S1x4_5_0 r _ e5 k
  have e7 : ∀ k, val_main_v75 (F := Ideal) x0 x1 x2 x3 x4 (ix2 r k) = hid x3 x4 6 (by decide) (hid x3 x4 5 (by decide) (hid x3 x4 4 (by decide) (hid x3 x4 3 (by decide) (hid x3 x4 2 (by decide) (hid x3 x4 1 (by decide) (hid x3 x4 0 (by decide) (first x1 x2 (rowOf x0 r)))))))) k :=
    fun k => hid_row (val_main_v65 (F := Ideal) x0 x1 x2 x3 x4) x3 x4 6 (by decide) slices_S10x4x4_S1x4x4_6_0_0 slices_S10x4_S1x4_6_0 r _ e6 k
  have e8 : ∀ k, val_main_v85 (F := Ideal) x0 x1 x2 x3 x4 (ix2 r k) = hid x3 x4 7 (by decide) (hid x3 x4 6 (by decide) (hid x3 x4 5 (by decide) (hid x3 x4 4 (by decide) (hid x3 x4 3 (by decide) (hid x3 x4 2 (by decide) (hid x3 x4 1 (by decide) (hid x3 x4 0 (by decide) (first x1 x2 (rowOf x0 r))))))))) k :=
    fun k => hid_row (val_main_v75 (F := Ideal) x0 x1 x2 x3 x4) x3 x4 7 (by decide) slices_S10x4x4_S1x4x4_7_0_0 slices_S10x4_S1x4_7_0 r _ e7 k
  have e9 : ∀ k, val_main_v95 (F := Ideal) x0 x1 x2 x3 x4 (ix2 r k) = hid x3 x4 8 (by decide) (hid x3 x4 7 (by decide) (hid x3 x4 6 (by decide) (hid x3 x4 5 (by decide) (hid x3 x4 4 (by decide) (hid x3 x4 3 (by decide) (hid x3 x4 2 (by decide) (hid x3 x4 1 (by decide) (hid x3 x4 0 (by decide) (first x1 x2 (rowOf x0 r)))))))))) k :=
    fun k => hid_row (val_main_v85 (F := Ideal) x0 x1 x2 x3 x4) x3 x4 8 (by decide) slices_S10x4x4_S1x4x4_8_0_0 slices_S10x4_S1x4_8_0 r _ e8 k
  have e10 : ∀ k, val_main_v105 (F := Ideal) x0 x1 x2 x3 x4 (ix2 r k) = hidden x3 x4 (first x1 x2 (rowOf x0 r)) k :=
    fun k => hid_row (val_main_v95 (F := Ideal) x0 x1 x2 x3 x4) x3 x4 9 (by decide) slices_S10x4x4_S1x4x4_9_0_0 slices_S10x4_S1x4_9_0 r _ e9 k
  exact last_row (val_main_v105 (F := Ideal) x0 x1 x2 x3 x4) x5 x6 r _ e10 u

/-- THE REFERENCE'S RESULT is the specification's array. -/
theorem result_eq : val_main_v110 (F := Ideal) x0 x1 x2 x3 x4 x5 x6 = G x0 x1 x2 x3 x4 x5 x6 := by
  funext i
  obtain ⟨r, u, rfl⟩ : ∃ (r : Fin 8388608) (u : Fin 1), i = ix2 r u := ⟨i 0, i 1, eq_ix2 i⟩
  rw [G_ix2]
  exact result_row x0 x1 x2 x3 x4 x5 x6 r u

end Cert.RefRow

end
-- ==== Proof.lean ====
/-
  A twelve-layer perceptron on a batch of 8,388,608 rows of two features — an input layer to four features, ten
  hidden layers of four features, each rectified, and an output layer to one feature — computed by a kernel that
  takes 8192 rows per grid point against a plain chain of matrix products.

  Both programs compute, on every row, the same chain of dense layers: a layer's output feature `j` is the dot
  product of the row with row `j` of the weights plus bias `j` (the kernel contracts against the weights' rows
  directly, the reference multiplies by the transposed weights: the same sum of the same products), then the maximum
  with zero. Rows do not interact and the kernel's blocks tile the batch, so both result arrays are the one array `G`
  of the specification (Proof/RowNet.lean): the kernel's by the layer lemmas on a block's row (Proof/KernelLayers.lean,
  Proof/KernelRow.lean) and the cover of the batch by the blocks (Proof/KernelArray.lean), the reference's by the same
  layer lemmas on a row of the whole batch (Proof/RefLayers.lean, Proof/RefRow.lean). No step uses a law of the
  extended reals beyond the definitions, so the precondition is never opened. The three frames are the generated
  frame runs; the idealization rewrote nothing, so `preserves` is trivial.
-/
import proofs.«174196_j25718264169060_1_alg».proof.Defs
import proofs.«174196_j25718264169060_1_alg».proof.Proof.Gen.Kernel
import proofs.«174196_j25718264169060_1_alg».proof.Proof.Gen.Kernel.Skeleton
import proofs.«174196_j25718264169060_1_alg».proof.Proof.Gen.Kernel.Launch
import proofs.«174196_j25718264169060_1_alg».proof.Proof.Gen.Kernel.Points
import proofs.«174196_j25718264169060_1_alg».proof.Proof.Gen.Kernel.Frame
import proofs.«174196_j25718264169060_1_alg».proof.Proof.Gen.KernelIdeal
import proofs.«174196_j25718264169060_1_alg».proof.Proof.Gen.KernelIdeal.Skeleton
import proofs.«174196_j25718264169060_1_alg».proof.Proof.Gen.KernelIdeal.Launch
import proofs.«174196_j25718264169060_1_alg».proof.Proof.Gen.KernelIdeal.Points
import proofs.«174196_j25718264169060_1_alg».proof.Proof.Gen.KernelIdeal.Frame
import proofs.«174196_j25718264169060_1_alg».proof.Proof.Gen.ReferenceIdeal
import proofs.«174196_j25718264169060_1_alg».proof.Proof.Gen.Pre_finite_inputs
import proofs.«174196_j25718264169060_1_alg».proof.Proof.Gen.KernelIdeal.Value
import proofs.«174196_j25718264169060_1_alg».proof.Proof.Gen.ReferenceIdeal.Run
import proofs.«174196_j25718264169060_1_alg».proof.Proof.Gen.ReferenceIdeal.Read
import proofs.«174196_j25718264169060_1_alg».proof.Proof.KernelArray
import proofs.«174196_j25718264169060_1_alg».proof.Proof.RefRow
import Idealize.ShloMosaic.Adequacy
import Idealize.ShloMosaic.Init

noncomputable section

namespace Cert.Proof

open Idealize.ShloMosaic Idealize.SL.Sem Cert.Kernel

/-- The kernel's frame at the word level: the generated frame run. -/
theorem frame_k : Cert.frame_Kernel := fun m ρ _ => Cert.Kernel.Gen.frame m ρ

/-- The idealized kernel's frame: the generated frame run. -/
theorem frame_ki : Cert.frame_KernelIdeal := fun m ρ _ => Cert.KernelIdeal.Gen.frame m ρ

/-- The reference's frame: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at `G` of the (agreeing) arguments. -/
theorem algebraic : Cert.algebraic_KernelIdeal_ReferenceIdeal := by
  intro m ρ m' ρ' _ hagree
  refine ⟨_, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v110_eq, Cert.RefRow.result_eq]
  obtain ⟨a0, a1, a2, a3, a4, a5, a6⟩ := hagree c
  rw [a0, a1, a2, a3, a4, a5, a6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
